-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x13 : Shape := ⟨2, ![262144, 13]⟩
abbrev S262144 : Shape := ⟨1, ![262144]⟩
abbrev S262144x512 : Shape := ⟨2, ![262144, 512]⟩
abbrev S13 : Shape := ⟨1, ![13]⟩
abbrev S_ : Shape := ⟨0, ![]⟩

class Facts : Prop where
  bcast_S_S262144x13 : S_.BroadcastsInDim S262144x13 (![] : Fin 0 → Fin S262144x13.rank)
  reducesTo_S262144x13_S_d0_1 : S262144x13.ReducesTo [0, 1] S_
  h_S_ : 0 < S_.numel
  bcast_S_S262144x512 : S_.BroadcastsInDim S262144x512 (![] : Fin 0 → Fin S262144x512.rank)
  reducesTo_S262144x512_S_d0_1 : S262144x512.ReducesTo [0, 1] S_
  bcast_S_S13 : S_.BroadcastsInDim S13 (![] : Fin 0 → Fin S13.rank)
  reducesTo_S13_S_d0 : S13.ReducesTo [0] S_
  bcast_S_S262144 : S_.BroadcastsInDim S262144 (![] : Fin 0 → Fin S262144.rank)
  reducesTo_S262144_S_d0 : S262144.ReducesTo [0] S_

variable [Facts]

def fn_part1 {F : FTy → Type} [FloatOps F] (main_arg1 : IVec S262144 32) (main_v13 : IVec S_ 1) (main_v15 : IVec S262144 1) (main_c_5 : IVec S_ 1) : IVec S_ 1 :=
  let main_v16 : IVec S_ 1 := (fun x v => Host.reduce IntOp.andi x v reducesTo_S262144_S_d0 h_S_) main_v15 main_c_5
  let main_v17 : IVec S_ 1 := andi main_v13 main_v16
  let main_c_6 : IVec S_ 32 := constantI S_ 32 13#32
  let main_v18 : IVec S262144 32 := broadcastInDim S262144 ![] bcast_S_S262144 main_c_6
  let main_v19 : IVec S262144 1 := cmpi .slt main_arg1 main_v18
  let main_c_7 : IVec S_ 1 := constantI S_ 1 1#1
  let main_v20 : IVec S_ 1 := (fun x v => Host.reduce IntOp.andi x v reducesTo_S262144_S_d0 h_S_) main_v19 main_c_7
  let main_v21 : IVec S_ 1 := andi main_v17 main_v20
  main_v21

def fn {F : FTy → Type} [FloatOps F] (main_arg0 : FVec F S262144x13 .f32) (main_arg1 : IVec S262144 32) (main_arg2 : IVec S262144 1) (main_arg3 : FVec F S262144x512 .f32) (main_arg4 : FVec F S13 .f32) : IVec S_ 1 :=
  let main_v0 : FVec F S262144x13 .f32 := Host.absf main_arg0
  let main_cst : FVec F S_ .f32 := constant S_ .f32 0x7F800000#32
  let main_v1 : FVec F S262144x13 .f32 := broadcastInDim S262144x13 ![] bcast_S_S262144x13 main_cst
  let main_v2 : IVec S262144x13 1 := cmpf .olt main_v0 main_v1
  let main_c : IVec S_ 1 := constantI S_ 1 1#1
  let main_v3 : IVec S_ 1 := (fun x v => Host.reduce IntOp.andi x v reducesTo_S262144x13_S_d0_1 h_S_) main_v2 main_c
  let main_v4 : FVec F S262144x512 .f32 := Host.absf main_arg3
  let main_cst_0 : FVec F S_ .f32 := constant S_ .f32 0x7F800000#32
  let main_v5 : FVec F S262144x512 .f32 := broadcastInDim S262144x512 ![] bcast_S_S262144x512 main_cst_0
  let main_v6 : IVec S262144x512 1 := cmpf .olt main_v4 main_v5
  let main_c_1 : IVec S_ 1 := constantI S_ 1 1#1
  let main_v7 : IVec S_ 1 := (fun x v => Host.reduce IntOp.andi x v reducesTo_S262144x512_S_d0_1 h_S_) main_v6 main_c_1
  let main_v8 : IVec S_ 1 := andi main_v3 main_v7
  let main_v9 : FVec F S13 .f32 := Host.absf main_arg4
  let main_cst_2 : FVec F S_ .f32 := constant S_ .f32 0x7F800000#32
  let main_v10 : FVec F S13 .f32 := broadcastInDim S13 ![] bcast_S_S13 main_cst_2
  let main_v11 : IVec S13 1 := cmpf .olt main_v9 main_v10
  let main_c_3 : IVec S_ 1 := constantI S_ 1 1#1
  let main_v12 : IVec S_ 1 := (fun x v => Host.reduce IntOp.andi x v reducesTo_S13_S_d0 h_S_) main_v11 main_c_3
  let main_v13 : IVec S_ 1 := andi main_v8 main_v12
  let main_c_4 : IVec S_ 32 := constantI S_ 32 0#32
  let main_v14 : IVec S262144 32 := broadcastInDim S262144 ![] bcast_S_S262144 main_c_4
  let main_v15 : IVec S262144 1 := cmpi .sge main_arg1 main_v14
  let main_c_5 : IVec S_ 1 := constantI S_ 1 1#1
  fn_part1 (F := F) main_arg1 main_v13 main_v15 main_c_5
-- ==== Kernel.lean ====
abbrev S262144x13 : Shape := ⟨2, ![262144, 13]⟩
abbrev S262144 : Shape := ⟨1, ![262144]⟩
abbrev S262144x512 : Shape := ⟨2, ![262144, 512]⟩
abbrev S13 : Shape := ⟨1, ![13]⟩
abbrev S1x262144 : Shape := ⟨2, ![1, 262144]⟩
abbrev S2x262144 : Shape := ⟨2, ![2, 262144]⟩
abbrev S13x262144 : Shape := ⟨2, ![13, 262144]⟩
abbrev S13x1 : Shape := ⟨2, ![13, 1]⟩
abbrev S2x1x128 : Shape := ⟨3, ![2, 1, 128]⟩
abbrev S13x4096 : Shape := ⟨2, ![13, 4096]⟩
abbrev S2x4096 : Shape := ⟨2, ![2, 4096]⟩
abbrev S4096x512 : Shape := ⟨2, ![4096, 512]⟩
abbrev S1x1x128 : Shape := ⟨3, ![1, 1, 128]⟩
abbrev S4096 : Shape := ⟨1, ![4096]⟩
abbrev S1x4096 : Shape := ⟨2, ![1, 4096]⟩
abbrev S3x4096 : Shape := ⟨2, ![3, 4096]⟩
abbrev S4096x3 : Shape := ⟨2, ![4096, 3]⟩
abbrev S4096x1 : Shape := ⟨2, ![4096, 1]⟩
abbrev S4096x128 : Shape := ⟨2, ![4096, 128]⟩
abbrev S1 : Shape := ⟨1, ![1]⟩
abbrev S1x1 : Shape := ⟨2, ![1, 1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 22
  | .vmem => 13
  | .smem => 0
  | _ => 0

abbrev bufTy : (tb : Table) → Fin (tcTables nBuf tb) → BufTy
  | .hbm, ⟨0, _⟩ => ⟨S262144x13, .f32⟩
  | .hbm, ⟨1, _⟩ => ⟨S262144, .i32⟩
  | .hbm, ⟨2, _⟩ => ⟨S262144, .i1⟩
  | .hbm, ⟨3, _⟩ => ⟨S262144x512, .f32⟩
  | .hbm, ⟨4, _⟩ => ⟨S13, .f32⟩
  | .hbm, ⟨5, _⟩ => ⟨S262144, .i32⟩
  | .hbm, ⟨6, _⟩ => ⟨S1x262144, .i32⟩
  | .hbm, ⟨7, _⟩ => ⟨S1x262144, .i32⟩
  | .hbm, ⟨8, _⟩ => ⟨S2x262144, .i32⟩
  | .hbm, ⟨9, _⟩ => ⟨S13x262144, .f32⟩
  | .hbm, ⟨10, _⟩ => ⟨S13x1, .f32⟩
  | .hbm, ⟨11, _⟩ => ⟨S2x1x128, .f32⟩
  | .hbm, ⟨12, _⟩ => ⟨S2x1x128, .f32⟩
  | .hbm, ⟨13, _⟩ => ⟨S2x1x1, .f32⟩
  | .hbm, ⟨14, _⟩ => ⟨S2, .f32⟩
  | .hbm, ⟨15, _⟩ => ⟨S_, .f32⟩
  | .hbm, ⟨16, _⟩ => ⟨S_, .f32⟩
  | .hbm, ⟨17, _⟩ => ⟨S2x1x1, .f32⟩
  | .hbm, ⟨18, _⟩ => ⟨S2, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S13x4096, .f32⟩
  | .local _ .vmem, ⟨1, _⟩ => ⟨S13x4096, .f32⟩
  | .local _ .vmem, ⟨2, _⟩ => ⟨S2x4096, .i32⟩
  | .local _ .vmem, ⟨3, _⟩ => ⟨S2x4096, .i32⟩
  | .local _ .vmem, ⟨4, _⟩ => ⟨S4096x512, .f32⟩
  | .local _ .vmem, ⟨5, _⟩ => ⟨S4096x512, .f32⟩
  | .local _ .vmem, ⟨6, _⟩ => ⟨S13x1, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | _, _ => ⟨S262144x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v107 : BitVec 1 := Scalar.cmpi .eq arg1 c31_i32
  let v108 : BitVec 32 := Scalar.extui v107
  let c0_i32_42 : BitVec 32 := 0#32
  let v109 : BitVec 1 := Scalar.cmpi .ne v108 c0_i32_42
  v109

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S13x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S13x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  natLt_1_32 : 1 < 32
  bcast_S262144_S1x262144_1 : S262144.BroadcastsInDim S1x262144 (![1] : Fin 1 → Fin S1x262144.rank)
  concatenates_S1x262144_S1x262144_S2x262144_d0 : Shape.Concatenates [S1x262144, S1x262144] S2x262144 0
  transposes_S262144x13_S13x262144_1_0 : S262144x13.Transposes [1, 0] S13x262144
  shapeCasts_S13_S13x1 : S13.ShapeCasts S13x1
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  inb_S13x4096_S13x4096_0_0 : ∀ a, (![0, 0] : Fin 2 → Nat) a + S13x4096.size a ≤ S13x4096.size a
  h_S13x4096 : 0 < S13x4096.numel
  shapeCasts_S13x4096_S13x4096 : S13x4096.ShapeCasts S13x4096
  reduces_S13x4096_S4096 : S13x4096.Reduces [0] S4096
  shapeCasts_S4096_S1x4096 : S4096.ShapeCasts S1x4096
  broadcasts_S1x4096_S13x4096 : S1x4096.Broadcasts S13x4096
  inb_S2x4096_S2x4096_0_0 : ∀ a, (![0, 0] : Fin 2 → Nat) a + S2x4096.size a ≤ S2x4096.size a
  h_S2x4096 : 0 < S2x4096.numel
  shapeCasts_S2x4096_S2x4096 : S2x4096.ShapeCasts S2x4096
  slices_S2x4096_o0_0_S1x4096 : S2x4096.Slices ![0, 0] S1x4096
  slices_S2x4096_o1_0_S1x4096 : S2x4096.Slices ![1, 0] S1x4096
  iota_S13x4096_d0_w32 : S13x4096.Iotas .tc 32 [0]
  inb_S13x1_S13x1_0_0 : ∀ a, (![0, 0] : Fin 2 → Nat) a + S13x1.size a ≤ S13x1.size a
  h_S13x1 : 0 < S13x1.numel
  shapeCasts_S13x1_S13x1 : S13x1.ShapeCasts S13x1
  broadcasts_S13x1_S13x4096 : S13x1.Broadcasts S13x4096
  concatenates_S1x4096_S1x4096_S1x4096_S3x4096_d0 : Shape.Concatenates [S1x4096, S1x4096, S1x4096] S3x4096 0
  transposes_S3x4096_p1_0_S4096x3 : S3x4096.Transposes [1, 0] S4096x3
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  inb_S4096x512_S4096x128_0_0 : ∀ a, (![0, 0] : Fin 2 → Nat) a + S4096x128.size a ≤ S4096x512.size a
  h_S4096x128 : 0 < S4096x128.numel
  reduces_S4096x128_S4096 : S4096x128.Reduces [1] S4096
  shapeCasts_S4096_S4096x1 : S4096.ShapeCasts S4096x1
  inb_S4096x512_S4096x128_0_128 : ∀ a, (![0, 128] : Fin 2 → Nat) a + S4096x128.size a ≤ S4096x512.size a
  inb_S4096x512_S4096x128_0_256 : ∀ a, (![0, 256] : Fin 2 → Nat) a + S4096x128.size a ≤ S4096x512.size a
  inb_S4096x512_S4096x128_0_384 : ∀ a, (![0, 384] : Fin 2 → Nat) a + S4096x128.size a ≤ S4096x512.size a
  reduces_S4096x1_S1 : S4096x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S13x4096.size a ≤ S13x262144.size a
  hwx0_0 : ∀ i : grid0.Coords, EltTy.bits .f32 = 32 ∨ (Rect.block (s := S13x262144) S13x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x4096.size a ≤ S2x262144.size a
  hwx0_1 : ∀ i : grid0.Coords, EltTy.bits .i32 = 32 ∨ (Rect.block (s := S2x262144) S2x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S262144x512.size a
  hwx0_2 : ∀ i : grid0.Coords, EltTy.bits .f32 = 32 ∨ (Rect.block (s := S262144x512) S4096x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S13x1.size a ≤ S13x1.size a
  hwx0_3 : ∀ i : grid0.Coords, EltTy.bits .f32 = 32 ∨ (Rect.block (s := S13x1) S13x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)

variable [Facts₀]

abbrev win0_0 : Pipeline.Window sig grid0 :=
  Pipeline.Window.ofSpec (Memref.whole main_v4) S13x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4096x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S13x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S262144x13 : Shape := ⟨2, ![262144, 13]⟩
abbrev S262144 : Shape := ⟨1, ![262144]⟩
abbrev S262144x512 : Shape := ⟨2, ![262144, 512]⟩
abbrev S13 : Shape := ⟨1, ![13]⟩
abbrev S_ : Shape := ⟨0, ![]⟩
abbrev S262144x1 : Shape := ⟨2, ![262144, 1]⟩
abbrev S262144x1x1 : Shape := ⟨3, ![262144, 1, 1]⟩
abbrev S1 : Shape := ⟨1, ![1]⟩
abbrev S1x1x1 : Shape := ⟨3, ![1, 1, 1]⟩

abbrev nBuf : Space → Nat
  | .hbm => 89
  | .vmem => 0
  | .smem => 0
  | _ => 0

abbrev bufTy : (tb : Table) → Fin (tcTables nBuf tb) → BufTy
  | .hbm, ⟨0, _⟩ => ⟨S262144x13, .f32⟩
  | .hbm, ⟨1, _⟩ => ⟨S262144, .i32⟩
  | .hbm, ⟨2, _⟩ => ⟨S262144, .i1⟩
  | .hbm, ⟨3, _⟩ => ⟨S262144x512, .f32⟩
  | .hbm, ⟨4, _⟩ => ⟨S13, .f32⟩
  | .hbm, ⟨5, _⟩ => ⟨S_, .f32⟩
  | .hbm, ⟨6, _⟩ => ⟨S262144, .f32⟩
  | .hbm, ⟨7, _⟩ => ⟨S_, .f32⟩
  | .hbm, ⟨8, _⟩ => ⟨S262144, .f32⟩
  | .hbm, ⟨9, _⟩ => ⟨S262144, .f32⟩
  | .hbm, ⟨10, _⟩ => ⟨S262144x1, .f32⟩
  | .hbm, ⟨11, _⟩ => ⟨S262144x13, .f32⟩
  | .hbm, ⟨12, _⟩ => ⟨S262144x13, .f32⟩
  | .hbm, ⟨13, _⟩ => ⟨S262144x13, .f32⟩
  | .hbm, ⟨14, _⟩ => ⟨S_, .f32⟩
  | .hbm, ⟨15, _⟩ => ⟨S262144, .f32⟩
  | .hbm, ⟨16, _⟩ => ⟨S262144x1, .f32⟩
  | .hbm, ⟨17, _⟩ => ⟨S262144x13, .f32⟩
  | .hbm, ⟨18, _⟩ => ⟨S262144x13, .f32⟩
  | .hbm, ⟨19, _⟩ => ⟨S_, .f32⟩
  | .hbm, ⟨20, _⟩ => ⟨S262144x13, .f32⟩
  | .hbm, ⟨21, _⟩ => ⟨S262144x13, .f32⟩
  | .hbm, ⟨22, _⟩ => ⟨S262144x13, .f32⟩
  | .hbm, ⟨23, _⟩ => ⟨S262144x512, .f32⟩
  | .hbm, ⟨24, _⟩ => ⟨S_, .f32⟩
  | .hbm, ⟨25, _⟩ => ⟨S262144, .f32⟩
  | .hbm, ⟨26, _⟩ => ⟨S262144, .f32⟩
  | .hbm, ⟨27, _⟩ => ⟨S_, .f32⟩
  | .hbm, ⟨28, _⟩ => ⟨S262144, .f32⟩
  | .hbm, ⟨29, _⟩ => ⟨S_, .f32⟩
  | .hbm, ⟨30, _⟩ => ⟨S262144, .f32⟩
  | .hbm, ⟨31, _⟩ => ⟨S262144, .f32⟩
  | .hbm, ⟨32, _⟩ => ⟨S262144, .f32⟩
  | .hbm, ⟨33, _⟩ => ⟨S_, .f32⟩
  | .hbm, ⟨34, _⟩ => ⟨S262144, .f32⟩
  | .hbm, ⟨35, _⟩ => ⟨S262144, .f32⟩
  | .hbm, ⟨36, _⟩ => ⟨S262144, .f32⟩
  | .hbm, ⟨37, _⟩ => ⟨S262144x1, .i32⟩
  | .hbm, ⟨38, _⟩ => ⟨S_, .i32⟩
  | .hbm, ⟨39, _⟩ => ⟨S262144x1, .i32⟩
  | .hbm, ⟨40, _⟩ => ⟨S262144x1, .i1⟩
  | .hbm, ⟨41, _⟩ => ⟨S_, .i32⟩
  | .hbm, ⟨42, _⟩ => ⟨S262144x1, .i32⟩
  | .hbm, ⟨43, _⟩ => ⟨S262144x1, .i32⟩
  | .hbm, ⟨44, _⟩ => ⟨S262144x1, .i32⟩
  | .hbm, ⟨45, _⟩ => ⟨S262144x1x1, .i32⟩
  | .hbm, ⟨46, _⟩ => ⟨S1, .i32⟩
  | .hbm, ⟨47, _⟩ => ⟨S_, .i32⟩
  | .hbm, ⟨48, _⟩ => ⟨S262144x1x1, .i32⟩
  | .hbm, ⟨49, _⟩ => ⟨S262144x1x1, .i1⟩
  | .hbm, ⟨50, _⟩ => ⟨S1x1x1, .i32⟩
  | .hbm, ⟨51, _⟩ => ⟨S262144x1x1, .i32⟩
  | .hbm, ⟨52, _⟩ => ⟨S262144x1x1, .i1⟩
  | .hbm, ⟨53, _⟩ => ⟨S262144x1x1, .i1⟩
  | .hbm, ⟨54, _⟩ => ⟨S_, .i1⟩
  | .hbm, ⟨55, _⟩ => ⟨S262144x1, .i1⟩
  | .hbm, ⟨56, _⟩ => ⟨S262144x1, .f32⟩
  | .hbm, ⟨57, _⟩ => ⟨S_, .f32⟩
  | .hbm, ⟨58, _⟩ => ⟨S262144x1, .f32⟩
  | .hbm, ⟨59, _⟩ => ⟨S262144x1, .f32⟩
  | .hbm, ⟨60, _⟩ => ⟨S262144, .f32⟩
  | .hbm, ⟨61, _⟩ => ⟨S262144, .f32⟩
  | .hbm, ⟨62, _⟩ => ⟨S_, .f32⟩
  | .hbm, ⟨63, _⟩ => ⟨S262144, .f32⟩
  | .hbm, ⟨64, _⟩ => ⟨S262144, .f32⟩
  | .hbm, ⟨65, _⟩ => ⟨S_, .f32⟩
  | .hbm, ⟨66, _⟩ => ⟨S262144, .f32⟩
  | .hbm, ⟨67, _⟩ => ⟨S262144, .f32⟩
  | .hbm, ⟨68, _⟩ => ⟨S262144, .f32⟩
  | .hbm, ⟨69, _⟩ => ⟨S_, .f32⟩
  | .hbm, ⟨70, _⟩ => ⟨S262144, .f32⟩
  | .hbm, ⟨71, _⟩ => ⟨S262144, .f32⟩
  | .hbm, ⟨72, _⟩ => ⟨S262144, .f32⟩
  | .hbm, ⟨73, _⟩ => ⟨S262144, .f32⟩
  | .hbm, ⟨74, _⟩ => ⟨S_, .i32⟩
  | .hbm, ⟨75, _⟩ => ⟨S262144, .i32⟩
  | .hbm, ⟨76, _⟩ => ⟨S262144, .i1⟩
  | .hbm, ⟨77, _⟩ => ⟨S_, .i32⟩
  | .hbm, ⟨78, _⟩ => ⟨S262144, .i32⟩
  | .hbm, ⟨79, _⟩ => ⟨S262144, .i32⟩
  | .hbm, ⟨80, _⟩ => ⟨S262144, .i32⟩
  | .hbm, ⟨81, _⟩ => ⟨S262144x1, .i32⟩
  | .hbm, ⟨82, _⟩ => ⟨S262144, .f32⟩
  | .hbm, ⟨83, _⟩ => ⟨S262144, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S262144x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_cst : Ref sig .tc := ⟨.hbm, 57, rfl⟩
abbrev main_call1_v14 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_6 : Ref sig .tc := ⟨.hbm, 62, rfl⟩
abbrev main_v26 : Ref sig .tc := ⟨.hbm, 63, rfl⟩
abbrev main_v27 : Ref sig .tc := ⟨.hbm, 64, rfl⟩
abbrev main_cst_7 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst_8 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c : Ref sig .tc := ⟨.hbm, 74, rfl⟩
abbrev main_v35 : Ref sig .tc := ⟨.hbm, 75, rfl⟩
abbrev main_v36 : Ref sig .tc := ⟨.hbm, 76, rfl⟩
abbrev main_c_9 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_10 : Ref sig .tc := ⟨.hbm, 84, rfl⟩
abbrev main_v43 : Ref sig .tc := ⟨.hbm, 85, rfl⟩
abbrev main_cst_11 : Ref sig .tc := ⟨.hbm, 86, rfl⟩
abbrev main_v44 : Ref sig .tc := ⟨.hbm, 87, rfl⟩
abbrev main_v45 : Ref sig .tc := ⟨.hbm, 88, rfl⟩

abbrev nD : Nat := 1
abbrev τ : Topo := Topo.v7x

variable {F : FTy → Type} [FloatOps F]

class Facts₀ : Prop where
  reducesTo_S262144x13_S262144_d1 : S262144x13.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x13_0_1 : S262144x1.BroadcastsInDim S262144x13 (![0, 1] : Fin 2 → Fin S262144x13.rank)
  bcast_S_S262144x13 : S_.BroadcastsInDim S262144x13 (![] : Fin 0 → Fin S262144x13.rank)
  reducesTo_S262144x512_S262144_d1 : S262144x512.ReducesTo [1] S262144
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  shapeCasts_S262144x1_S262144 : S262144x1.ShapeCasts S262144
  reducesTo_S262144_S_d0 : S262144.ReducesTo [0] S_
  gather_S262144x13_S262144x1x1_S262144x1_n_1_0_0_1_2_11_wf : GatherDims.WF S262144x13 S262144x1x1 S262144x1 [] [1] [0] [1] [0] 2 ![1, 1]
  gather_S13_S262144x1_S262144_n_0_n_n_0_1_1_wf : GatherDims.WF S13 S262144x1 S262144 [] [0] [] [0] [] 1 ![1]

variable [Facts₀]

def gather_S262144x13_S262144x1x1_S262144x1_n_1_0_0_1_2_11 : GatherDims S262144x13 S262144x1x1 S262144x1 where
  offsetDims := []
  collapsedSliceDims := [1]
  operandBatchingDims := [0]
  startIndicesBatchingDims := [0]
  startIndexMap := [1]
  indexVectorDim := 2
  sliceSizes := ![1, 1]
  wf := gather_S262144x13_S262144x1x1_S262144x1_n_1_0_0_1_2_11_wf
def gather_S13_S262144x1_S262144_n_0_n_n_0_1_1 : GatherDims S13 S262144x1 S262144 where
  offsetDims := []
  collapsedSliceDims := [0]
  operandBatchingDims := []
  startIndicesBatchingDims := []
  startIndexMap := [0]
  indexVectorDim := 1
  sliceSizes := ![1]
  wf := gather_S13_S262144x1_S262144_n_0_n_n_0_1_1_wf

class Facts : Prop extends Facts₀ where

variable [Facts]
-- ==== Proof.RowLoss.lean ====
import Idealize.ShloMosaic.PureOps.Ideal
import Idealize.ShloMosaic.PureOps.Ideal.Laws
import Idealize.ShloMosaic.Lib.ValueIdx

/-! # The objectosphere loss, row by row, on the extended reals

A row of the batch carries thirteen logits `x`, a class label `y`, a flag `u` ("this sample is of no
known class") and 512 features `f`; the class weights `w` are shared. With `p = softmax x` and
`ℓ c = log (p c + ε)`, `‖f‖` the Euclidean norm of the features:

* a flagged row costs `-(1/12) · Σ_c ℓ c + λ · ‖f‖²` (the uniform log-loss, and the features pulled to zero);
* an unflagged row costs `-ℓ y + λ · max (ξ - ‖f‖) 0 ²` (the log-loss of its class, and the features
  pushed out to norm `ξ`);

and the objective is the weighted mean `Σ_b w (y b) · cost b / Σ_b w (y b)`. Every constant is the
extended real its 32-bit pattern denotes (the same pattern in both programs, so never evaluated). -/

noncomputable section

namespace Cert.Objectosphere

open Idealize.ShloMosaic Idealize.ShloMosaic.ValueIdx

/-- The largest logit of a row: the maximum over the thirteen classes, from `-∞`. -/
def rowMax (x : Fin 13 → EReal) : EReal :=
  (Finset.univ : Finset (Fin 13)).fold max (Ideal.ofBits .f32 0xFF800000#32) x

/-- `exp` of a logit shifted by the row's maximum: the numerator of the softmax. -/
def expShift (x : Fin 13 → EReal) (c : Fin 13) : EReal := Ideal.exp (x c - rowMax x)

/-- `log (softmax x c + ε)`, with `ε` the pattern of `1e-10`. -/
def logSoft (x : Fin 13 → EReal) (c : Fin 13) : EReal :=
  Ideal.log (Ideal.div (expShift x c) (∑ k : Fin 13, expShift x k) + Ideal.ofBits .f32 0x2EDBE6FF#32)

/-- The Euclidean norm of a row's features. -/
def featNorm (f : Fin 512 → EReal) : EReal := Ideal.sqrt (∑ d : Fin 512, f d * f d)

/-- The cost of a flagged row: uniform log-loss (the pattern of `-1/12`) plus `λ` (the pattern of `1e-4`) times the squared norm. -/
def costUnknown (x : Fin 13 → EReal) (f : Fin 512 → EReal) : EReal :=
  Ideal.ofBits .f32 0xBDAAAAAB#32 * (∑ c : Fin 13, logSoft x c)
    + Ideal.ofBits .f32 0x38D1B717#32 * (featNorm f * featNorm f)

/-- How far the feature norm falls short of `ξ` (the pattern of `10`), clipped at zero. -/
def shortfall (f : Fin 512 → EReal) : EReal :=
  max (Ideal.ofBits .f32 0x41200000#32 - featNorm f) (Ideal.ofBits .f32 0x00000000#32)

/-- The cost of an unflagged row of class `y`. -/
def costKnown (x : Fin 13 → EReal) (y : Fin 13) (f : Fin 512 → EReal) : EReal :=
  -(logSoft x y) + Ideal.ofBits .f32 0x38D1B717#32 * (shortfall f * shortfall f)

/-- A row's cost. -/
def rowCost (x : Fin 13 → EReal) (y : Fin 13) (u : Bool) (f : Fin 512 → EReal) : EReal :=
  if u then costUnknown x f else costKnown x y f

/-- A label word read as a class (labels are in `[0, 13)`; the remainder only makes the reading total). -/
def classOf (y : BitVec 32) : Fin 13 := ⟨y.toNat % 13, Nat.mod_lt _ (by norm_num)⟩

/-- A row's weight, and its weighted cost. -/
def rowWeight (w : Fin 13 → EReal) (y : BitVec 32) : EReal := w (classOf y)

def rowTerm (w x : Fin 13 → EReal) (y : BitVec 32) (u : Bool) (f : Fin 512 → EReal) : EReal :=
  rowWeight w y * rowCost x (classOf y) u f

/-! ## The whole batch -/

/-- Row `b` of the five argument arrays. -/
def weightAt (Y : (⟨1, ![262144]⟩ : Shape).Idx → BitVec 32) (W : (⟨1, ![13]⟩ : Shape).Idx → EReal) (b : Fin 262144) : EReal :=
  rowWeight (fun c => W (ix1 c)) (Y (ix1 b))

def termAt (L : (⟨2, ![262144, 13]⟩ : Shape).Idx → EReal) (Y : (⟨1, ![262144]⟩ : Shape).Idx → BitVec 32)
    (U : (⟨1, ![262144]⟩ : Shape).Idx → BitVec 1) (Fe : (⟨2, ![262144, 512]⟩ : Shape).Idx → EReal)
    (W : (⟨1, ![13]⟩ : Shape).Idx → EReal) (b : Fin 262144) : EReal :=
  rowTerm (fun c => W (ix1 c)) (fun c => L (ix2 b c)) (Y (ix1 b)) (decide (U (ix1 b) = 1#1)) (fun d => Fe (ix2 b d))

/-- The objective: the weighted costs' sum over the weights' sum. -/
def objective (L : (⟨2, ![262144, 13]⟩ : Shape).Idx → EReal) (Y : (⟨1, ![262144]⟩ : Shape).Idx → BitVec 32)
    (U : (⟨1, ![262144]⟩ : Shape).Idx → BitVec 1) (Fe : (⟨2, ![262144, 512]⟩ : Shape).Idx → EReal)
    (W : (⟨1, ![13]⟩ : Shape).Idx → EReal) : EReal :=
  Ideal.div (∑ b : Fin 262144, termAt L Y U Fe W b) (∑ b : Fin 262144, weightAt Y W b)

/-- What the precondition says of the labels: every one is a class. -/
def LabelsInRange (Y : (⟨1, ![262144]⟩ : Shape).Idx → BitVec 32) : Prop :=
  ∀ b : Fin 262144, 0 ≤ (Y (ix1 b)).toInt ∧ (Y (ix1 b)).toInt < 13

end Cert.Objectosphere

end
-- ==== Proof.RefValue.lean ====
import proofs.«414827_j7971459301860_3_alg».proof.Proof.RefRead
import proofs.«414827_j7971459301860_3_alg».proof.Proof.RowLoss
import Idealize.ShloMosaic.PureOps.Ideal.Laws
import Idealize.ShloMosaic.PureOps.Reduce
import Idealize.ShloMosaic.Lib.ValueIdx
import Idealize.ShloMosaic.Lib.ValueIdxRank1
import Idealize.ShloMosaic.Lib.Pipeline.Value

/-! # The reference computes the objective

The reference's operations, read one at a time at the extended reals, under the precondition that
every label is a class: its softmax, its log, its norm, its two costs, its choice by the flag, its
gathers by the label, its two sums and its quotient are the row-by-row objective. -/

noncomputable section

namespace Cert.ReferenceIdeal.RefValue

open Cert.ReferenceIdeal Cert.ReferenceIdeal.Gen Cert.ReferenceIdeal.ReadP Cert.Objectosphere
open Idealize.ShloMosaic Idealize.ShloMosaic.ValueIdx

/-! ## A label that is a class -/

/-- A word whose signed reading is in `[0, 13)` has its unsigned reading there too. -/
theorem label_toNat_lt {y : BitVec 32} (h0 : 0 ≤ y.toInt) (h1 : y.toInt < 13) : y.toNat < 13 := by
  have hlt := y.isLt
  have h := BitVec.toInt_eq_toNat_cond y
  split at h <;> omega

/-- Its signed reading, as a natural number, is its unsigned reading. -/
theorem label_toInt_toNat {y : BitVec 32} (h0 : 0 ≤ y.toInt) (h1 : y.toInt < 13) : y.toInt.toNat = y.toNat := by
  have hlt := y.isLt
  have h := BitVec.toInt_eq_toNat_cond y
  split at h <;> omega

/-- A nonnegative word is not below zero. -/
theorem cmpi_slt_zero {y : BitVec 32} (h0 : 0 ≤ y.toInt) : IntOp.cmpi .slt y 0#32 = 0#1 := by
  have : y.slt 0#32 = false := by
    simp only [BitVec.slt, BitVec.toInt_zero, decide_eq_false_iff_not, not_lt]; exact h0
  simp only [IntOp.cmpi, this]; rfl

/-- A nonnegative word is at least zero. -/
theorem cmpi_sge_zero {y : BitVec 32} (h0 : 0 ≤ y.toInt) : IntOp.cmpi .sge y 0#32 = 1#1 := by
  have : (0#32 : BitVec 32).sle y = true := by
    simp only [BitVec.sle, BitVec.toInt_zero, decide_eq_true_eq]; exact h0
  simp only [IntOp.cmpi, this]; rfl

/-- A word below thirteen is at most twelve. -/
theorem cmpi_sle_twelve {y : BitVec 32} (h1 : y.toInt < 13) : IntOp.cmpi .sle y 12#32 = 1#1 := by
  have h12 : (12#32 : BitVec 32).toInt = 12 := by decide
  have : y.sle 12#32 = true := by
    simp only [BitVec.sle, h12, decide_eq_true_eq]; omega
  simp only [IntOp.cmpi, this]; rfl

/-- The class of a label in range is the label. -/
theorem classOf_val {y : BitVec 32} (h0 : 0 ≤ y.toInt) (h1 : y.toInt < 13) : (classOf y).val = y.toNat := by
  show y.toNat % 13 = y.toNat
  exact Nat.mod_eq_of_lt (label_toNat_lt h0 h1)

instance andi_commutative : Std.Commutative (IntOp.andi : BitVec 1 → BitVec 1 → BitVec 1) := ⟨fun a b => BitVec.and_comm a b⟩
instance andi_associative : Std.Associative (IntOp.andi : BitVec 1 → BitVec 1 → BitVec 1) := ⟨fun a b c => BitVec.and_assoc a b c⟩

/-- A conjunction of ones, from one, is one. -/
theorem fold_andi_one {ι : Type} [DecidableEq ι] (S : Finset ι) (f : ι → BitVec 1) (hf : ∀ i, f i = 1#1) :
    S.fold IntOp.andi 1#1 f = 1#1 := by
  induction S using Finset.induction_on with
  | empty => rfl
  | insert a S ha ih => rw [Finset.fold_insert ha, ih, hf a]; rfl

/-! ## The two gathers' operand indices -/

/-- The row gather reads, for row `b`, the operand at `(b, start)`: the start index read signed and clamped into the row. -/
theorem gatherRow_idx {w : Nat} (idx : IVec S262144x1x1 w) (b : Fin 262144) :
    gather_S262144x13_S262144x1x1_S262144x1_n_1_0_0_1_2_11.operandIdx (ix2 b (0 : Fin 1)) idx
      = ix2 b ⟨min (idx (ix3 b (0 : Fin 1) (0 : Fin 1))).toInt.toNat 12, by omega⟩ := by
  funext a
  match a with
  | ⟨0, _⟩ =>
    apply Fin.ext
    show gather_S262144x13_S262144x1x1_S262144x1_n_1_0_0_1_2_11.start (ix2 b (0 : Fin 1)) idx 0
      + gather_S262144x13_S262144x1x1_S262144x1_n_1_0_0_1_2_11.batchCoord (ix2 b (0 : Fin 1)) 0
      + gather_S262144x13_S262144x1x1_S262144x1_n_1_0_0_1_2_11.offCoord (ix2 b (0 : Fin 1)) 0 = b.val
    rw [GatherDims.start_batching _ _ _ _ (by decide), GatherDims.offCoord_eq_zero _ _ _ (by decide), Nat.zero_add, Nat.add_zero]
    rfl
  | ⟨1, _⟩ =>
    apply Fin.ext
    show gather_S262144x13_S262144x1x1_S262144x1_n_1_0_0_1_2_11.start (ix2 b (0 : Fin 1)) idx 1
      + gather_S262144x13_S262144x1x1_S262144x1_n_1_0_0_1_2_11.batchCoord (ix2 b (0 : Fin 1)) 1
      + gather_S262144x13_S262144x1x1_S262144x1_n_1_0_0_1_2_11.offCoord (ix2 b (0 : Fin 1)) 1 = _
    rw [GatherDims.batchCoord_eq_zero _ _ _ (by decide), GatherDims.offCoord_eq_zero _ _ _ (by decide)]
    simp only [Nat.add_zero]
    unfold GatherDims.start
    rw [dif_pos (by decide)]
    have hsi : gather_S262144x13_S262144x1x1_S262144x1_n_1_0_0_1_2_11.siIdx (ix2 b (0 : Fin 1))
        ⟨List.idxOf 1 gather_S262144x13_S262144x1x1_S262144x1_n_1_0_0_1_2_11.startIndexMap,
          List.idxOf_lt_length_iff.2 (by decide)⟩ = ix3 b (0 : Fin 1) (0 : Fin 1) := by
      funext c; apply Fin.ext
      match c with
      | ⟨0, _⟩ => rfl
      | ⟨1, _⟩ => rfl
      | ⟨2, _⟩ => rfl
    rw [hsi]; rfl

/-! ## The softmax of a row -/

/-- The row maximum the reference reduces is the fold of `max` over the classes. -/
theorem v0_row (x0 : (⟨S262144x13, .f32⟩ : BufTy).Contents (Elt Ideal)) (b : Fin 262144) :
    val_main_v0 (F := Ideal) x0 (ix1 b) = rowMax (fun c => x0 (ix2 b c)) := by
  unfold val_main_v0 rowMax
  rw [Host.reduce_eq_fold_single (FloatOps.maximumf (F := Ideal) (φ := .f32)) x0 _ reducesTo_S262144x13_S262144_d1 (by decide) h_S_]
  refine Eq.trans (Finset.fold_congr (g := fun c : Fin 13 => x0 (ix2 b c)) fun k _ => ?_) rfl
  exact congrArg x0 (funext fun a => Fin.ext (by match a with | ⟨0, _⟩ => rfl | ⟨1, _⟩ => rfl))

/-- A fold of `max` is at least its initial value. -/
theorem le_fold_max_init {ι : Type} [DecidableEq ι] (S : Finset ι) (c : EReal) (f : ι → EReal) : c ≤ S.fold max c f := by
  induction S using Finset.induction_on with
  | empty => rw [Finset.fold_empty]
  | insert a S ha ih => rw [Finset.fold_insert ha]; exact le_max_of_le_right ih

/-- Taking the maximum with `-∞` once more changes nothing. -/
theorem v2_row (x0 : (⟨S262144x13, .f32⟩ : BufTy).Contents (Elt Ideal)) (b : Fin 262144) :
    val_main_v2 (F := Ideal) x0 (ix1 b) = rowMax (fun c => x0 (ix2 b c)) := by
  rw [val_main_v2_apply, val_main_v1_apply, val_main_cst_0_apply, v0_row]
  show max (Ideal.ofBits .f32 0xFF800000#32) (rowMax _) = _
  exact max_eq_right (le_fold_max_init _ _ _)

/-- The exponential of the shifted logit. -/
theorem v6_row (x0 : (⟨S262144x13, .f32⟩ : BufTy).Contents (Elt Ideal)) (b : Fin 262144) (c : Fin 13) :
    val_main_v6 (F := Ideal) x0 (ix2 b c) = expShift (fun c => x0 (ix2 b c)) c := by
  rw [val_main_v6_apply, val_main_v5_apply, val_main_v4_apply, val_main_v3_apply,
    show idx_main_v3 (idx_main_v4 (ix2 b c)) = ix1 b from funext fun a => Fin.ext (by match a with | ⟨0, _⟩ => rfl), v2_row]
  rfl

/-- The softmax's denominator. -/
theorem v7_row (x0 : (⟨S262144x13, .f32⟩ : BufTy).Contents (Elt Ideal)) (b : Fin 262144) :
    val_main_v7 (F := Ideal) x0 (ix1 b) = ∑ k : Fin 13, expShift (fun c => x0 (ix2 b c)) k := by
  rw [val_main_v7_apply, val_main_cst_1_apply]
  show Ideal.ofBits .f32 0x00000000#32 + _ = _
  rw [Ideal.ofBits_zero_f32, zero_add]
  refine Finset.sum_congr rfl fun k _ => ?_
  rw [show idx_main_v7 (ix1 b) k = ix2 b k from funext fun a => Fin.ext (by match a with | ⟨0, _⟩ => rfl | ⟨1, _⟩ => rfl), v6_row]

/-- The log of the softmax plus `ε`. -/
theorem v13_row (x0 : (⟨S262144x13, .f32⟩ : BufTy).Contents (Elt Ideal)) (b : Fin 262144) (c : Fin 13) :
    val_main_v13 (F := Ideal) x0 (ix2 b c) = logSoft (fun c => x0 (ix2 b c)) c := by
  rw [val_main_v13_apply, val_main_v12_apply, val_main_v11_apply, val_main_cst_2_apply, val_main_v10_apply,
    val_main_v9_apply, val_main_v8_apply,
    show idx_main_v8 (idx_main_v9 (ix2 b c)) = ix1 b from funext fun a => Fin.ext (by match a with | ⟨0, _⟩ => rfl), v7_row, v6_row]
  rfl

/-! ## The feature norm of a row -/

theorem v14_row (x3 : (⟨S262144x512, .f32⟩ : BufTy).Contents (Elt Ideal)) (b : Fin 262144) :
    val_main_v14 (F := Ideal) x3 (ix1 b) = featNorm (fun d => x3 (ix2 b d)) := by
  rw [val_main_v14_apply, val_main_call0_v1_apply, val_main_call0_cst_apply]
  show Ideal.sqrt (Ideal.ofBits .f32 0x00000000#32 + _) = _
  rw [Ideal.ofBits_zero_f32, zero_add]
  unfold featNorm
  refine congrArg Ideal.sqrt (Finset.sum_congr rfl fun k _ => ?_)
  rw [val_main_call0_v0_apply,
    show idx_main_call0_v1 (ix1 b) k = ix2 b k from funext fun a => Fin.ext (by match a with | ⟨0, _⟩ => rfl | ⟨1, _⟩ => rfl)]
  rfl

/-! ## The two costs of a row -/

/-- The flagged cost. -/
theorem v21_row (x0 : (⟨S262144x13, .f32⟩ : BufTy).Contents (Elt Ideal)) (x3 : (⟨S262144x512, .f32⟩ : BufTy).Contents (Elt Ideal))
    (b : Fin 262144) :
    val_main_v21 (F := Ideal) x0 x3 (ix1 b) = costUnknown (fun c => x0 (ix2 b c)) (fun d => x3 (ix2 b d)) := by
  have h15 : val_main_v15 (F := Ideal) x0 (ix1 b) = ∑ c : Fin 13, logSoft (fun c => x0 (ix2 b c)) c := by
    rw [val_main_v15_apply, val_main_cst_3_apply]
    show Ideal.ofBits .f32 0x00000000#32 + _ = _
    rw [Ideal.ofBits_zero_f32, zero_add]
    refine Finset.sum_congr rfl fun k _ => ?_
    rw [show idx_main_v15 (ix1 b) k = ix2 b k from funext fun a => Fin.ext (by match a with | ⟨0, _⟩ => rfl | ⟨1, _⟩ => rfl), v13_row]
  rw [val_main_v21_apply, val_main_v17_apply, val_main_v16_apply, val_main_cst_4_apply, h15, val_main_v20_apply,
    val_main_v19_apply, val_main_cst_5_apply, val_main_v18_apply, v14_row]
  rfl

/-- The part of the unflagged cost that the features give. -/
theorem v32_row (x3 : (⟨S262144x512, .f32⟩ : BufTy).Contents (Elt Ideal)) (b : Fin 262144) :
    val_main_v32 (F := Ideal) x3 (ix1 b)
      = Ideal.ofBits .f32 0x38D1B717#32 * (shortfall (fun d => x3 (ix2 b d)) * shortfall (fun d => x3 (ix2 b d))) := by
  rw [val_main_v32_apply, val_main_v31_apply, val_main_cst_8_apply, val_main_v30_apply, val_main_v29_apply,
    val_main_v28_apply, val_main_cst_7_apply, val_main_v27_apply, val_main_v26_apply, val_main_cst_6_apply, v14_row]
  rfl

/-! ## The label, wrapped, and the gathers at it -/

/-- The label column after the wrap of negative labels: a class label is left as it is. -/
theorem call1_v5_row (x1 : (⟨S262144, .i32⟩ : BufTy).Contents (Elt Ideal)) (hy : LabelsInRange x1) (b : Fin 262144) :
    val_main_call1_v5 (F := Ideal) x1 (ix3 b (0 : Fin 1) (0 : Fin 1)) = x1 (ix1 b) := by
  have hi5 : idx_main_call1_v5 (ix3 b (0 : Fin 1) (0 : Fin 1)) = ix2 b (0 : Fin 1) :=
    funext fun a => Fin.ext (by
      match a with
      | ⟨0, _⟩ => show ((b.val * 1 + 0) * 1 + 0) / 1 = b.val; omega
      | ⟨1, _⟩ => rfl)
  have hi22 : idx_main_v22 (ix2 b (0 : Fin 1)) = ix1 b := funext fun a => Fin.ext (by match a with | ⟨0, _⟩ => rfl)
  rw [val_main_call1_v5_apply, hi5, val_main_call1_v4_apply, val_main_call1_v1_apply, val_main_v22_apply, hi22,
    val_main_call1_v0_apply, val_main_call1_c_apply, cmpi_slt_zero (hy b).1, select_zero]

/-- The label after the second wrap. -/
theorem v40_row (x1 : (⟨S262144, .i32⟩ : BufTy).Contents (Elt Ideal)) (hy : LabelsInRange x1) (b : Fin 262144) :
    val_main_v40 (F := Ideal) x1 (ix2 b (0 : Fin 1)) = x1 (ix1 b) := by
  have hi40 : idx_main_v40 (ix2 b (0 : Fin 1)) = ix1 b := funext fun a => Fin.ext (by match a with | ⟨0, _⟩ => rfl)
  rw [val_main_v40_apply, hi40, val_main_v39_apply, val_main_v36_apply, val_main_v35_apply, val_main_c_apply,
    cmpi_slt_zero (hy b).1, select_zero]

/-- The range test of the label is true. -/
theorem call1_v12_row (x1 : (⟨S262144, .i32⟩ : BufTy).Contents (Elt Ideal)) (hy : LabelsInRange x1) (b : Fin 262144) :
    val_main_call1_v12 (F := Ideal) x1 (ix2 b (0 : Fin 1)) = 1#1 := by
  unfold val_main_call1_v12
  rw [Host.reduce_eq_fold IntOp.andi]
  refine fold_andi_one _ _ fun i => ?_
  obtain ⟨a, p, q, rfl⟩ : ∃ a p q, i = ix3 a p q := ⟨i 0, i 1, i 2, eq_ix3 i⟩
  obtain rfl : p = 0 := Subsingleton.elim _ _
  obtain rfl : q = 0 := Subsingleton.elim _ _
  rw [val_main_call1_v11_apply, val_main_call1_v7_apply, val_main_call1_v10_apply, call1_v5_row x1 hy,
    val_main_call1_v6_apply, val_main_call1_c_2_apply, val_main_call1_v9_apply, val_main_call1_v8_apply,
    val_main_call1_c_1_apply, cmpi_sge_zero (hy a).1, cmpi_sle_twelve (hy a).2]
  rfl

/-- The clamp of a class label into `[0, 12]` is the label's class. -/
theorem label_clamp {y : BitVec 32} (h0 : 0 ≤ y.toInt) (h1 : y.toInt < 13) : min y.toInt.toNat 12 = (classOf y).val := by
  rw [classOf_val h0 h1, label_toInt_toNat h0 h1]
  have := label_toNat_lt h0 h1
  omega

/-- The row gather at a start index that clamps to `c` reads column `c` of the row. -/
theorem gatherRow_apply {α : Type} {w : Nat} (x : S262144x13.Idx → α) (idx : IVec S262144x1x1 w) (b : Fin 262144) (c : Fin 13)
    (hc : min (idx (ix3 b (0 : Fin 1) (0 : Fin 1))).toInt.toNat 12 = c.val) :
    Host.gather gather_S262144x13_S262144x1x1_S262144x1_n_1_0_0_1_2_11 x idx (ix2 b (0 : Fin 1)) = x (ix2 b c) := by
  unfold Host.gather
  rw [gatherRow_idx]
  exact congrArg (fun c => x (ix2 b c)) (Fin.ext hc)

/-- The weight gather reads, for row `b`, the operand at the start index read signed and clamped. -/
theorem gatherW_idx {w : Nat} (idx : IVec S262144x1 w) (b : Fin 262144) :
    gather_S13_S262144x1_S262144_n_0_n_n_0_1_1.operandIdx (ix1 b) idx
      = ix1 ⟨min (idx (ix2 b (0 : Fin 1))).toInt.toNat 12, by omega⟩ := by
  funext a
  match a with
  | ⟨0, _⟩ =>
    apply Fin.ext
    show gather_S13_S262144x1_S262144_n_0_n_n_0_1_1.start (ix1 b) idx 0
      + gather_S13_S262144x1_S262144_n_0_n_n_0_1_1.batchCoord (ix1 b) 0
      + gather_S13_S262144x1_S262144_n_0_n_n_0_1_1.offCoord (ix1 b) 0 = _
    rw [GatherDims.batchCoord_eq_zero _ _ _ (by decide), GatherDims.offCoord_eq_zero _ _ _ (by decide)]
    simp only [Nat.add_zero]
    unfold GatherDims.start
    rw [dif_pos (by decide)]
    have hsi : gather_S13_S262144x1_S262144_n_0_n_n_0_1_1.siIdx (ix1 b)
        ⟨List.idxOf 0 gather_S13_S262144x1_S262144_n_0_n_n_0_1_1.startIndexMap,
          List.idxOf_lt_length_iff.2 (by decide)⟩ = ix2 b (0 : Fin 1) := by
      funext c; apply Fin.ext
      match c with
      | ⟨0, _⟩ => rfl
      | ⟨1, _⟩ => rfl
    rw [hsi]; rfl

theorem gatherW_apply {α : Type} {w : Nat} (x : S13.Idx → α) (idx : IVec S262144x1 w) (b : Fin 262144) (c : Fin 13)
    (hc : min (idx (ix2 b (0 : Fin 1))).toInt.toNat 12 = c.val) :
    Host.gather gather_S13_S262144x1_S262144_n_0_n_n_0_1_1 x idx (ix1 b) = x (ix1 c) := by
  unfold Host.gather
  rw [gatherW_idx]
  exact congrArg (fun c => x (ix1 c)) (Fin.ext hc)

/-- The log-softmax taken at the label. -/
theorem v24_row (x0 : (⟨S262144x13, .f32⟩ : BufTy).Contents (Elt Ideal)) (x1 : (⟨S262144, .i32⟩ : BufTy).Contents (Elt Ideal))
    (hy : LabelsInRange x1) (b : Fin 262144) :
    val_main_v24 (F := Ideal) x0 x1 (ix1 b) = logSoft (fun c => x0 (ix2 b c)) (classOf (x1 (ix1 b))) := by
  have hi24 : idx_main_v24 (ix1 b) = ix2 b (0 : Fin 1) :=
    funext fun a => Fin.ext (by
      match a with
      | ⟨0, _⟩ => show b.val / 1 = b.val; omega
      | ⟨1, _⟩ => rfl)
  have h13 : val_main_call1_v13 (F := Ideal) x0 x1 (ix2 b (0 : Fin 1))
      = val_main_v13 (F := Ideal) x0 (ix2 b (classOf (x1 (ix1 b)))) := by
    unfold val_main_call1_v13
    refine gatherRow_apply _ _ b _ ?_
    rw [call1_v5_row x1 hy b]
    exact label_clamp (hy b).1 (hy b).2
  rw [val_main_v24_apply, hi24, val_main_v23_apply, call1_v12_row x1 hy b, select_one, h13, v13_row]

/-- The weight of the label's class. -/
theorem v41_row (x1 : (⟨S262144, .i32⟩ : BufTy).Contents (Elt Ideal)) (x4 : (⟨S13, .f32⟩ : BufTy).Contents (Elt Ideal))
    (hy : LabelsInRange x1) (b : Fin 262144) :
    val_main_v41 (F := Ideal) x1 x4 (ix1 b) = x4 (ix1 (classOf (x1 (ix1 b)))) := by
  unfold val_main_v41
  refine gatherW_apply _ _ b _ ?_
  rw [v40_row x1 hy b]
  exact label_clamp (hy b).1 (hy b).2

/-- The unflagged cost. -/
theorem v33_row (x0 : (⟨S262144x13, .f32⟩ : BufTy).Contents (Elt Ideal)) (x1 : (⟨S262144, .i32⟩ : BufTy).Contents (Elt Ideal))
    (x3 : (⟨S262144x512, .f32⟩ : BufTy).Contents (Elt Ideal)) (hy : LabelsInRange x1) (b : Fin 262144) :
    val_main_v33 (F := Ideal) x0 x1 x3 (ix1 b)
      = costKnown (fun c => x0 (ix2 b c)) (classOf (x1 (ix1 b))) (fun d => x3 (ix2 b d)) := by
  rw [val_main_v33_apply, val_main_v25_apply, v24_row x0 x1 hy b, v32_row]
  rfl

/-- The cost the flag chooses. -/
theorem v34_row (x0 : (⟨S262144x13, .f32⟩ : BufTy).Contents (Elt Ideal)) (x1 : (⟨S262144, .i32⟩ : BufTy).Contents (Elt Ideal))
    (x2 : (⟨S262144, .i1⟩ : BufTy).Contents (Elt Ideal)) (x3 : (⟨S262144x512, .f32⟩ : BufTy).Contents (Elt Ideal))
    (hy : LabelsInRange x1) (b : Fin 262144) :
    val_main_v34 (F := Ideal) x0 x1 x2 x3 (ix1 b)
      = rowCost (fun c => x0 (ix2 b c)) (classOf (x1 (ix1 b))) (decide (x2 (ix1 b) = 1#1)) (fun d => x3 (ix2 b d)) := by
  rw [val_main_v34_apply, v21_row, v33_row x0 x1 x3 hy b]
  unfold rowCost
  by_cases h : x2 (ix1 b) = 1#1
  · rw [if_pos (decide_eq_true h), h, select_one]
  · rw [if_neg (fun hd => h (of_decide_eq_true hd)), eq_zero_of_ne_one h, select_zero]

/-! ## The two sums and the quotient -/

/-- The reference's result, at its one index, is the objective of the five argument arrays. -/
theorem reference_value (x0 : (⟨S262144x13, .f32⟩ : BufTy).Contents (Elt Ideal)) (x1 : (⟨S262144, .i32⟩ : BufTy).Contents (Elt Ideal))
    (x2 : (⟨S262144, .i1⟩ : BufTy).Contents (Elt Ideal)) (x3 : (⟨S262144x512, .f32⟩ : BufTy).Contents (Elt Ideal))
    (x4 : (⟨S13, .f32⟩ : BufTy).Contents (Elt Ideal)) (hy : LabelsInRange x1) (i : S_.Idx) :
    val_main_v45 (F := Ideal) x0 x1 x2 x3 x4 i = objective x0 x1 x2 x3 x4 := by
  have hnum : ∑ j : S262144.Idx, val_main_v42 (F := Ideal) x0 x1 x2 x3 x4 j = ∑ b : Fin 262144, termAt x0 x1 x2 x3 x4 b := by
    refine ((Equiv.sum_comp (idxEquiv1 (n := 262144)).symm _).symm.trans (Finset.sum_congr rfl fun b _ => ?_))
    show val_main_v42 (F := Ideal) x0 x1 x2 x3 x4 (ix1 b) = _
    rw [val_main_v42_apply, v41_row x1 x4 hy b, v34_row x0 x1 x2 x3 hy b]
    rfl
  have hden : ∑ j : S262144.Idx, val_main_v41 (F := Ideal) x1 x4 j = ∑ b : Fin 262144, weightAt x1 x4 b := by
    refine ((Equiv.sum_comp (idxEquiv1 (n := 262144)).symm _).symm.trans (Finset.sum_congr rfl fun b _ => ?_))
    show val_main_v41 (F := Ideal) x1 x4 (ix1 b) = _
    rw [v41_row x1 x4 hy b]
    rfl
  rw [val_main_v45_apply, val_main_v43_apply, val_main_v44_apply, val_main_cst_10_apply, val_main_cst_11_apply, hnum, hden]
  show Ideal.div (Ideal.ofBits .f32 0x00000000#32 + _) (Ideal.ofBits .f32 0x00000000#32 + _) = _
  rw [Ideal.ofBits_zero_f32, zero_add, zero_add]
  rfl

end Cert.ReferenceIdeal.RefValue

end
-- ==== Proof.PreRange.lean ====
import proofs.«414827_j7971459301860_3_alg».proof.Pre_finite_inputs
import proofs.«414827_j7971459301860_3_alg».proof.Proof.RowLoss
import Idealize.ShloMosaic.PureOps.Ideal
import Idealize.ShloMosaic.Lib.ReduceAll
import Idealize.ShloMosaic.Lib.StableHlo.Predicate
import Idealize.ShloMosaic.Lib.ValueIdx
import Mathlib.Data.Fintype.BigOperators
import Mathlib.Logic.Equiv.Fin.Basic
import Mathlib.Algebra.BigOperators.Group.Finset.Defs

/-! # What the precondition says of the labels, and the batch's rows dealt into tiles

The precondition is a conjunction of five "all" tests; its last two say that every label is at least 0
and below 13. And a sum over the 262144 rows is the sum over the two halves of the batch, over the 32
tiles of a half, over the 4096 rows of a tile. -/

noncomputable section

namespace Cert.Objectosphere

open Idealize.ShloMosaic Idealize.ShloMosaic.ValueIdx

/-- Under the precondition every label is a class. -/
theorem labels_of_pre {F : FTy → Type} [FloatOps F] [Cert.Pre_finite_inputs.Facts]
    (a0 : FVec F Cert.Pre_finite_inputs.S262144x13 .f32) (a1 : IVec Cert.Pre_finite_inputs.S262144 32)
    (a2 : IVec Cert.Pre_finite_inputs.S262144 1) (a3 : FVec F Cert.Pre_finite_inputs.S262144x512 .f32)
    (a4 : FVec F Cert.Pre_finite_inputs.S13 .f32)
    (h : Cert.Pre_finite_inputs.fn (F := F) a0 a1 a2 a3 a4 = fun _ => 1#1) : LabelsInRange a1 := by
  -- a rank-0 result has one index
  haveI : Subsingleton Cert.Pre_finite_inputs.S_.Idx := ⟨fun a b => funext fun d => d.elim0⟩
  have e := congrFun h ValueIdx.ix0
  dsimp only [Cert.Pre_finite_inputs.fn, Cert.Pre_finite_inputs.fn_part1] at e
  -- the conjunction of five tests is 1: so are its last two
  obtain ⟨e1, hlt⟩ := IntOp.andi_eq_one.1 e
  obtain ⟨-, hge⟩ := IntOp.andi_eq_one.1 e1
  intro b
  -- an "all" that is 1 is 1 at every row
  have h1 := Host.reduce_andi_all _ _ _ _ _ hge (ix1 b)
  have h2 := Host.reduce_andi_all _ _ _ _ _ hlt (ix1 b)
  -- at row b the tests compare the label with the words 0 and 13, signed
  have h1' : IntOp.cmpi .sge (a1 (ix1 b)) 0#32 = 1#1 := h1
  have h2' : IntOp.cmpi .slt (a1 (ix1 b)) 13#32 = 1#1 := h2
  have g1 := IntOp.cmpi_sge.1 h1'
  have g2 := IntOp.cmpi_slt.1 h2'
  rw [show (0#32 : BitVec 32).toInt = 0 from by decide] at g1
  rw [show (13#32 : BitVec 32).toInt = 13 from by decide] at g2
  exact ⟨g1, g2⟩

/-- Row `r` of tile `n` (tiles of 4096 rows, in order; the remainder only makes the reading total). -/
def rowOf (n : Nat) (r : Fin 4096) : Fin 262144 := ⟨(n * 4096 + r.val) % 262144, Nat.mod_lt _ (by norm_num)⟩

/-- A sum over the batch's rows, dealt into 2 halves of 32 tiles of 4096 rows. -/
theorem sum_rows_by_tiles {M : Type*} [AddCommMonoid M] (f : Fin 262144 → M) :
    ∑ b : Fin 262144, f b = ∑ q : Fin 2, ∑ s ∈ Finset.range 32, ∑ r : Fin 4096, f (rowOf (32 * q.val + s) r) := by
  -- a row is a half, a tile of the half, a row of the tile: (q, s, r) ↦ (32 q + s) · 4096 + r is a bijection onto the rows
  let e : (Fin 2 × Fin 32) × Fin 4096 ≃ Fin 262144 :=
    (Equiv.prodCongr (finProdFinEquiv (m := 2) (n := 32)) (Equiv.refl (Fin 4096))).trans (finProdFinEquiv (m := 2 * 32) (n := 4096))
  have he : ∀ (q : Fin 2) (s : Fin 32) (r : Fin 4096), e ((q, s), r) = rowOf (32 * q.val + s.val) r := by
    intro q s r
    apply Fin.ext
    show r.val + 4096 * (s.val + 32 * q.val) = ((32 * q.val + s.val) * 4096 + r.val) % 262144
    have := q.isLt; have := s.isLt; have := r.isLt
    omega
  rw [← Equiv.sum_comp e f, Fintype.sum_prod_type, Fintype.sum_prod_type]
  refine Finset.sum_congr rfl fun q _ => ?_
  -- the 32 tiles of a half, counted by a natural number below 32
  rw [← Fin.sum_univ_eq_sum_range (fun s => ∑ r : Fin 4096, f (rowOf (32 * q.val + s) r)) 32]
  exact Finset.sum_congr rfl fun s _ => Finset.sum_congr rfl fun r _ => congrArg f (he q s r)

end Cert.Objectosphere

end
-- ==== Proof.TileValue.lean ====
import proofs.«414827_j7971459301860_3_alg».proof.Proof.Gen.KernelIdeal.Skeleton
import proofs.«414827_j7971459301860_3_alg».proof.Proof.RowLoss
import Idealize.ShloMosaic.PureOps.Ideal.Laws
import Idealize.ShloMosaic.Lib.ValueIdx
import Idealize.ShloMosaic.Lib.ValueLayout
import Idealize.ShloMosaic.Lib.Pipeline.Value

/-! # One tile of the batch: what a grid point adds to the two running sums

A grid point holds 4096 rows of the batch: their logits class-major (13 × 4096), their label and flag
words (2 × 4096), their features (4096 × 512, read as four 128-lane chunks) and the class weights
(13 × 1). The kernel's arithmetic on them, read at the extended reals, adds to every lane of the first
running sum the tile's weighted costs `Σ_r w(y r) · cost r`, and to every lane of the second the tile's
weights `Σ_r w(y r)`. -/

noncomputable section

namespace Cert.KernelIdeal.TileValue

open Cert.KernelIdeal Cert.KernelIdeal.Gen Cert.Objectosphere
open Idealize.ShloMosaic Idealize.ShloMosaic.ValueIdx

/-! ## Words: labels, one-bit conditions and their floats -/

/-- A label word in `[0, 13)` read signed is below 13 read unsigned. -/
theorem label_nat {y : BitVec 32} (h : 0 ≤ y.toInt ∧ y.toInt < 13) : y.toNat < 13 := by
  have h1 := BitVec.toInt_eq_toNat_cond y
  have h2 := y.isLt
  split at h1 <;> omega

/-- A one-bit condition widened and converted is the float `1` or `0`. -/
theorem float_of_bit (b : BitVec 1) :
    (FloatOps.sitofp (F := Ideal) .f32 (b.setWidth 32) : EReal) = if b = 1#1 then 1 else 0 := by
  rcases BitVec.eq_zero_or_eq_one b with rfl | rfl
  · show (((BitVec.setWidth 32 (0#1)).toInt : ℝ) : EReal) = _
    simp
  · show (((BitVec.setWidth 32 (1#1)).toInt : ℝ) : EReal) = _
    simp

/-- The word of class `c` equals a label in range exactly when `c` is the label's class. -/
theorem onehot_bit (c : Fin 13) {y : BitVec 32} (h : 0 ≤ y.toInt ∧ y.toInt < 13) :
    IntOp.cmpi .eq (BitVec.ofNat 32 c.val) y = 1#1 ↔ c = classOf y := by
  have hy := label_nat h
  show BitVec.ofBool (BitVec.ofNat 32 c.val == y) = 1#1 ↔ _
  have hc : (BitVec.ofNat 32 c.val == y) = decide (c = classOf y) := by
    rw [Bool.eq_iff_iff]
    simp only [beq_iff_eq, decide_eq_true_eq]
    constructor
    · intro e; apply Fin.ext; show c.val = y.toNat % 13; rw [← e, BitVec.toNat_ofNat]; omega
    · intro e; apply BitVec.eq_of_toNat_eq; rw [BitVec.toNat_ofNat]
      have : c.val = y.toNat % 13 := congrArg Fin.val e
      omega
  rw [hc]
  by_cases e : c = classOf y <;> simp [e]

/-! ## Layout: a column broadcast over many -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Inserting class `k` into the row index `r` of a class-major block gives `(k, r)`. -/
theorem lift_class (r : Fin 4096) (k : Fin 13) :
    reduces_S13x4096_S4096.lift (ix1 r) k = ix2 k r := by
  funext a; match a with | ⟨0, _⟩ => rfl | ⟨1, _⟩ => rfl

/-! ## The one-hot of the label -/

/-- The one-hot block at `(c, r)`: `1` when `c` is row `r`'s class, else `0`. -/
theorem pay8_apply (x1 : Vec Ideal S2x4096 .i32) (c : Fin 13) (r : Fin 4096)
    (hy : 0 ≤ (x1 (ix2 0 r)).toInt ∧ (x1 (ix2 0 r)).toInt < 13) :
    k0_pay8 (F := Ideal) x1 (ix2 c r) = if c = classOf (x1 (ix2 0 r)) then 1 else 0 := by
  unfold k0_pay8 k0_pay6
  simp only [shapeCast_self]
  have e1 : iota Kind.tc S13x4096 32 [0] iota_S13x4096_d0_w32 (ix2 c r) = BitVec.ofNat 32 c.val :=
    iota_single_apply _ _ _ _ _ _
  have e2 : broadcastTo S13x4096 (extractStridedSlice S1x4096 ![0, 0] x1 slices_S2x4096_o0_0_S1x4096)
      broadcasts_S1x4096_S13x4096 (ix2 c r) = x1 (ix2 0 r) :=
    (broadcastTo_1b_ab_apply _ _ c r).trans (slice2_axis0_apply 0 x1 _ 0 r 0 rfl)
  show FloatOps.sitofp (F := Ideal) .f32 ((IntOp.cmpi .eq
      (iota Kind.tc S13x4096 32 [0] iota_S13x4096_d0_w32 (ix2 c r))
      (broadcastTo S13x4096 (extractStridedSlice S1x4096 ![0, 0] x1 slices_S2x4096_o0_0_S1x4096)
        broadcasts_S1x4096_S13x4096 (ix2 c r))).setWidth 32) = _
  rw [e1, e2, float_of_bit]
  by_cases e : c = classOf (x1 (ix2 0 r))
  · rw [if_pos ((onehot_bit c hy).mpr e), if_pos e]
  · rw [if_neg (fun h => e ((onehot_bit c hy).mp h)), if_neg e]

/-- A sum over the classes against the one-hot picks the label's class. -/
theorem sum_onehot (x1 : Vec Ideal S2x4096 .i32) (r : Fin 4096)
    (hy : 0 ≤ (x1 (ix2 0 r)).toInt ∧ (x1 (ix2 0 r)).toInt < 13) (g : Fin 13 → EReal) :
    ∑ k : Fin 13, k0_pay8 (F := Ideal) x1 (ix2 k r) * g k = g (classOf (x1 (ix2 0 r))) := by
  rw [Finset.sum_eq_single (classOf (x1 (ix2 0 r)))]
  · rw [pay8_apply x1 _ r hy, if_pos rfl, one_mul]
  · intro k _ hk
    rw [pay8_apply x1 k r hy, if_neg hk, zero_mul]
  · intro h; exact absurd (Finset.mem_univ _) h

/-! ## Reductions over the classes -/

/-- A sum over the classes of a class-major block, recast to one row, at row `r`. -/
theorem colsum_apply (src : FVec Ideal S13x4096 .f32) (hφ : FKind.Formats .f32)
    (hacc : (0x00000000#32 : BitVec 32) = 0x00000000#32) (r : Fin 4096) :
    shapeCast S1x4096 (multiReduction .add [0] S4096 src 0x00000000#32 reduces_S13x4096_S4096 hφ hacc)
      shapeCasts_S4096_S1x4096 (ix2 0 r) = ∑ k : Fin 13, src (ix2 k r) := by
  refine (shapeCast_a_1a_apply _ _ 0 r).trans ?_
  refine (Ideal.multiReduction_add_single src _ reduces_S13x4096_S4096 hφ hacc (ix1 r)).trans ?_
  show ∑ k : Fin 13, src (reduces_S13x4096_S4096.lift (ix1 r) k) = _
  refine Finset.sum_congr rfl fun k _ => ?_
  exact congrArg src (lift_class r k)

/-- A maximum over the classes of a class-major block, recast to one row, at row `r`. -/
theorem colmax_apply (src : FVec Ideal S13x4096 .f32) (hφ : FKind.Formats .f32)
    (hacc : (0xFF800000#32 : BitVec 32) = 0xFF800000#32) (r : Fin 4096) :
    shapeCast S1x4096 (multiReduction .maximumf [0] S4096 src 0xFF800000#32 reduces_S13x4096_S4096 hφ hacc)
      shapeCasts_S4096_S1x4096 (ix2 0 r) = rowMax fun k => src (ix2 k r) := by
  refine (shapeCast_a_1a_apply _ _ 0 r).trans ?_
  refine (Ideal.multiReduction_maximumf_single src _ reduces_S13x4096_S4096 hφ hacc (ix1 r)).trans ?_
  show (Finset.univ : Finset (Fin 13)).fold max (Ideal.ofBits .f32 0xFF800000#32)
      (src ∘ reduces_S13x4096_S4096.lift (ix1 r)) = _
  unfold rowMax
  congr 1
  funext k
  exact congrArg src (lift_class r k)

/-! ## The selected weight -/

/-- The weight row at `r`: the weight of row `r`'s class. -/
theorem pay9_apply (x1 : Vec Ideal S2x4096 .i32) (x3 : Vec Ideal S13x1 .f32) (r : Fin 4096)
    (hy : 0 ≤ (x1 (ix2 0 r)).toInt ∧ (x1 (ix2 0 r)).toInt < 13) :
    k0_pay9 (F := Ideal) x1 x3 (ix2 0 r) = x3 (ix2 (classOf (x1 (ix2 0 r))) 0) := by
  unfold k0_pay9
  simp only [shapeCast_self]
  refine (colsum_apply _ _ _ r).trans ?_
  refine Eq.trans ?_ (sum_onehot x1 r hy fun k => x3 (ix2 k 0))
  refine Finset.sum_congr rfl fun k _ => ?_
  show k0_pay8 x1 (ix2 k r) * broadcastTo S13x4096 x3 broadcasts_S13x1_S13x4096 (ix2 k r) = _
  rw [broadcastTo_a1_ab_apply]

/-! ## The last reduction: over the rows, into every lane -/

/-- A column summed over the rows, broadcast to the 128 lanes and added to the accumulator, at lane `l`. -/
theorem lanesum_apply (src : FVec Ideal S4096x1 .f32) (acc : Vec Ideal S1x1x128 .f32) (hφ : FKind.Formats .f32)
    (hacc : (0x00000000#32 : BitVec 32) = 0x00000000#32) (l : Fin 128) :
    addf (F := Ideal) acc (broadcastTo S1x1x128 (shapeCast S1x1x1 (shapeCast S1x1
        (multiReduction (F := Ideal) .add [0] S1 src 0x00000000#32 reduces_S4096x1_S1 hφ hacc) shapeCasts_S1_S1x1)
        shapeCasts_S1x1_S1x1x1) broadcasts_S1x1x1_S1x1x128) (ix3 0 0 l)
      = acc (ix3 0 0 l) + ∑ r : Fin 4096, src (ix2 r 0) := by
  show acc (ix3 0 0 l) + _ = _
  congr 1
  refine (broadcastTo_apply _ _ (ix3 0 0 l) (ix3 (0 : Fin 1) (0 : Fin 1) (0 : Fin 1)) fun a => ?_).trans ?_
  · match a with
    | ⟨0, _⟩ => rfl
    | ⟨1, _⟩ => rfl
    | ⟨2, _⟩ => rfl
  refine (shapeCast_apply _ _ (ix3 (0 : Fin 1) (0 : Fin 1) (0 : Fin 1)) (ix2 (0 : Fin 1) (0 : Fin 1)) ?_).trans ?_
  · rw [Shape.rowMajor_val_three, Shape.rowMajor_val_two]; rfl
  refine (shapeCast_a_1a_apply _ _ 0 0).trans ?_
  refine (Ideal.multiReduction_add_single src _ reduces_S4096x1_S1 hφ hacc (ix1 0)).trans ?_
  refine Finset.sum_congr rfl fun r _ => ?_
  congr 1
  funext a; match a with | ⟨0, _⟩ => rfl | ⟨1, _⟩ => rfl

/-- The second running sum's update at lane `l`: the accumulator plus the weight column's sum over the rows. -/
theorem pay2_apply (v50 : FVec Ideal S4096x1 .f32) (acc : Vec Ideal S1x1x128 .f32) (l : Fin 128) :
    k0_pay2 (F := Ideal) v50 acc (ix3 0 0 l) = acc (ix3 0 0 l) + ∑ r : Fin 4096, v50 (ix2 r 0) := by
  unfold k0_pay2
  simp only [shapeCast_self]
  exact lanesum_apply v50 acc _ _ l

/-- The first running sum's update at lane `l`: the accumulator plus the rows' weighted costs. -/
theorem pay1_apply (v49 v50 v82 : FVec Ideal S4096x1 .f32) (cst : Ideal .f32) (acc : Vec Ideal S1x1x128 .f32)
    (l : Fin 128) :
    k0_pay1 (F := Ideal) v49 v50 v82 cst acc (ix3 0 0 l)
      = acc (ix3 0 0 l) + ∑ r : Fin 4096, v50 (ix2 r 0) * (v49 (ix2 r 0) + cst * v82 (ix2 r 0)) := by
  unfold k0_pay1
  simp only [shapeCast_self]
  exact lanesum_apply _ acc _ _ l

/-! ## The stacked block and its columns -/

/-- Three rows stacked along axis 0: row 0 of the stack is the first piece, … -/
theorem stack3_row0 {α : Type} (v0 v1 v2 : S1x4096.Idx → α)
    (h : Shape.Concatenates [S1x4096, S1x4096, S1x4096] S3x4096 0) (r : Fin 4096) :
    concatenate S3x4096 0 [⟨S1x4096, v0⟩, ⟨S1x4096, v1⟩, ⟨S1x4096, v2⟩] h (ix2 0 r) = v0 (ix2 0 r) :=
  concatenate_apply_piece (t := S3x4096) 0 [⟨S1x4096, v0⟩, ⟨S1x4096, v1⟩, ⟨S1x4096, v2⟩] h (ix2 0 r) 0 (by simp) S1x4096 v0 rfl rfl 0 rfl (ix2 0 r)
    (fun b hb => by match b with | ⟨0, _⟩ => exact absurd (Fin.ext rfl) hb | ⟨1, _⟩ => rfl) rfl

/-- … row 1 the second, … -/
theorem stack3_row1 {α : Type} (v0 v1 v2 : S1x4096.Idx → α)
    (h : Shape.Concatenates [S1x4096, S1x4096, S1x4096] S3x4096 0) (r : Fin 4096) :
    concatenate S3x4096 0 [⟨S1x4096, v0⟩, ⟨S1x4096, v1⟩, ⟨S1x4096, v2⟩] h (ix2 1 r) = v1 (ix2 0 r) :=
  concatenate_apply_piece (t := S3x4096) 0 [⟨S1x4096, v0⟩, ⟨S1x4096, v1⟩, ⟨S1x4096, v2⟩] h (ix2 1 r) 1 (by simp) S1x4096 v1 rfl rfl 1 rfl (ix2 0 r)
    (fun b hb => by match b with | ⟨0, _⟩ => exact absurd (Fin.ext rfl) hb | ⟨1, _⟩ => rfl) rfl

/-- … and row 2 the third. -/
theorem stack3_row2 {α : Type} (v0 v1 v2 : S1x4096.Idx → α)
    (h : Shape.Concatenates [S1x4096, S1x4096, S1x4096] S3x4096 0) (r : Fin 4096) :
    concatenate S3x4096 0 [⟨S1x4096, v0⟩, ⟨S1x4096, v1⟩, ⟨S1x4096, v2⟩] h (ix2 2 r) = v2 (ix2 0 r) :=
  concatenate_apply_piece (t := S3x4096) 0 [⟨S1x4096, v0⟩, ⟨S1x4096, v1⟩, ⟨S1x4096, v2⟩] h (ix2 2 r) 2 (by simp) S1x4096 v2 rfl rfl 2 rfl (ix2 0 r)
    (fun b hb => by match b with | ⟨0, _⟩ => exact absurd (Fin.ext rfl) hb | ⟨1, _⟩ => rfl) rfl

/-- Column 0 of the transposed stack at row `r`: the flagged rows' uniform log-loss, the others' `0 -` their class's. -/
theorem pay13_col0 (v20 : IVec S1x4096 32) (v32 v35 v39 v40 : FVec Ideal S1x4096 .f32) (r : Fin 4096) :
    k0_pay13 (F := Ideal) v20 v32 v35 v39 v40 (ix2 r 0)
      = Scalar.select (IntOp.cmpi .ne (v20 (ix2 0 r)) 0#32) (v39 (ix2 0 r)) (v40 (ix2 0 r) - v35 (ix2 0 r)) := by
  unfold k0_pay13
  refine (transpose_ix2_apply _ _ r 0).trans ?_
  exact stack3_row0 _ _ _ _ r

/-- Column 1 at row `r`: the row's weight. -/
theorem pay13_col1 (v20 : IVec S1x4096 32) (v32 v35 v39 v40 : FVec Ideal S1x4096 .f32) (r : Fin 4096) :
    k0_pay13 (F := Ideal) v20 v32 v35 v39 v40 (ix2 r 1) = v32 (ix2 0 r) := by
  unfold k0_pay13
  refine (transpose_ix2_apply _ _ r 1).trans ?_
  exact stack3_row1 _ _ _ _ r

/-- Column 2 at row `r`: the flag as a float. -/
theorem pay13_col2 (v20 : IVec S1x4096 32) (v32 v35 v39 v40 : FVec Ideal S1x4096 .f32) (r : Fin 4096) :
    k0_pay13 (F := Ideal) v20 v32 v35 v39 v40 (ix2 r 2)
      = FloatOps.sitofp (F := Ideal) .f32 ((IntOp.cmpi .ne (v20 (ix2 0 r)) 0#32).setWidth 32) := by
  unfold k0_pay13
  refine (transpose_ix2_apply _ _ r 2).trans ?_
  exact stack3_row2 _ _ _ _ r

theorem pay14_apply (v20 : IVec S1x4096 32) (v32 v35 v39 v40 : FVec Ideal S1x4096 .f32) (r : Fin 4096) :
    k0_pay14 (F := Ideal) v20 v32 v35 v39 v40 (ix2 r 0) = k0_pay13 (F := Ideal) v20 v32 v35 v39 v40 (ix2 r 0) := by
  unfold k0_pay14
  exact slice2_axis1_apply 0 _ _ r 0 0 rfl

theorem pay15_apply (v20 : IVec S1x4096 32) (v32 v35 v39 v40 : FVec Ideal S1x4096 .f32) (r : Fin 4096) :
    k0_pay15 (F := Ideal) v20 v32 v35 v39 v40 (ix2 r 0) = k0_pay13 (F := Ideal) v20 v32 v35 v39 v40 (ix2 r 1) := by
  unfold k0_pay15
  exact slice2_axis1_apply 1 _ _ r 0 1 rfl

/-! ## The log-softmax, class-major -/

theorem exp_apply {s : Shape} (a : FVec Ideal s .f32) (i : s.Idx) : exp a i = Ideal.exp (a i) := rfl
theorem log_apply {s : Shape} (a : FVec Ideal s .f32) (i : s.Idx) : log a i = Ideal.log (a i) := rfl
theorem sqrt_apply {s : Shape} (a : FVec Ideal s .f32) (i : s.Idx) : sqrt a i = Ideal.sqrt (a i) := rfl

/-- The classes' sum, broadcast back over the classes, at `(c, r)`. -/
theorem bcast_colsum_apply (src : FVec Ideal S13x4096 .f32) (hφ : FKind.Formats .f32)
    (hacc : (0x00000000#32 : BitVec 32) = 0x00000000#32) (c : Fin 13) (r : Fin 4096) :
    broadcastTo S13x4096 (shapeCast S1x4096 (multiReduction .add [0] S4096 src 0x00000000#32 reduces_S13x4096_S4096 hφ hacc)
      shapeCasts_S4096_S1x4096) broadcasts_S1x4096_S13x4096 (ix2 c r) = ∑ k : Fin 13, src (ix2 k r) :=
  (broadcastTo_1b_ab_apply _ _ c r).trans (colsum_apply src hφ hacc r)

/-- The classes' maximum, broadcast back over the classes, at `(c, r)`. -/
theorem bcast_colmax_apply (src : FVec Ideal S13x4096 .f32) (hφ : FKind.Formats .f32)
    (hacc : (0xFF800000#32 : BitVec 32) = 0xFF800000#32) (c : Fin 13) (r : Fin 4096) :
    broadcastTo S13x4096 (shapeCast S1x4096 (multiReduction .maximumf [0] S4096 src 0xFF800000#32 reduces_S13x4096_S4096 hφ hacc)
      shapeCasts_S4096_S1x4096) broadcasts_S1x4096_S13x4096 (ix2 c r) = rowMax fun k => src (ix2 k r) :=
  (broadcastTo_1b_ab_apply _ _ c r).trans (colmax_apply src hφ hacc r)

/-- The shifted exponential at `(k, r)`. -/
theorem expshift_apply (x0 : Vec Ideal S13x4096 .f32) (hφ : FKind.Formats .f32)
    (hacc : (0xFF800000#32 : BitVec 32) = 0xFF800000#32) (k : Fin 13) (r : Fin 4096) :
    exp (F := Ideal) (subf (F := Ideal) x0 (broadcastTo S13x4096 (shapeCast S1x4096 (multiReduction (F := Ideal) .maximumf [0] S4096 x0 0xFF800000#32
      reduces_S13x4096_S4096 hφ hacc) shapeCasts_S4096_S1x4096) broadcasts_S1x4096_S13x4096)) (ix2 k r)
      = expShift (fun k => x0 (ix2 k r)) k := by
  show Ideal.exp (x0 (ix2 k r) - _) = _
  rw [bcast_colmax_apply x0 hφ hacc k r]
  rfl

/-- The log-softmax block at `(c, r)`: `log (softmax + ε)` of row `r`'s logits at class `c`. -/
theorem pay5_apply (x0 : Vec Ideal S13x4096 .f32) (c : Fin 13) (r : Fin 4096) :
    k0_pay5 (F := Ideal) x0 (ix2 c r) = logSoft (fun k => x0 (ix2 k r)) c := by
  unfold k0_pay5
  simp only [shapeCast_self]
  show Ideal.log (Ideal.div (exp (F := Ideal) (φ := .f32) (subf (F := Ideal) x0 _) (ix2 c r)) (broadcastTo S13x4096 _ _ (ix2 c r))
    + Ideal.ofBits .f32 0x2EDBE6FF#32) = _
  rw [bcast_colsum_apply _ _ _ c r, expshift_apply x0 _ _ c r]
  exact congrArg (fun t => Ideal.log (Ideal.div (expShift (fun k => x0 (ix2 k r)) c) t + Ideal.ofBits .f32 0x2EDBE6FF#32))
    (Finset.sum_congr rfl fun k _ => expshift_apply x0 _ _ k r)

/-- The label's log-softmax at row `r`. -/
theorem pay10_apply (x0 : Vec Ideal S13x4096 .f32) (x1 : Vec Ideal S2x4096 .i32) (r : Fin 4096)
    (hy : 0 ≤ (x1 (ix2 0 r)).toInt ∧ (x1 (ix2 0 r)).toInt < 13) :
    k0_pay10 (F := Ideal) x0 x1 (ix2 0 r) = logSoft (fun k => x0 (ix2 k r)) (classOf (x1 (ix2 0 r))) := by
  unfold k0_pay10
  refine (colsum_apply _ _ _ r).trans ?_
  refine Eq.trans ?_ (sum_onehot x1 r hy fun k => logSoft (fun k => x0 (ix2 k r)) k)
  refine Finset.sum_congr rfl fun k _ => ?_
  show k0_pay8 x1 (ix2 k r) * k0_pay5 x0 (ix2 k r) = _
  rw [pay5_apply]

/-- The uniform log-loss at row `r`. -/
theorem pay11_apply (x0 : Vec Ideal S13x4096 .f32) (r : Fin 4096) :
    k0_pay11 (F := Ideal) x0 (ix2 0 r)
      = Ideal.ofBits .f32 0xBDAAAAAB#32 * ∑ c : Fin 13, logSoft (fun k => x0 (ix2 k r)) c := by
  unfold k0_pay11
  refine congrArg (Ideal.ofBits .f32 0xBDAAAAAB#32 * ·) ((colsum_apply _ _ _ r).trans ?_)
  exact Finset.sum_congr rfl fun k _ => pay5_apply x0 k r

/-- The zero row. -/
theorem pay12_apply (r : Fin 4096) : k0_pay12 (F := Ideal) (ix2 0 r) = 0 := Ideal.ofBits_zero_f32

/-- The flag row at `r`. -/
theorem pay7_apply (x1 : Vec Ideal S2x4096 .i32) (r : Fin 4096) : k0_pay7 (F := Ideal) x1 (ix2 0 r) = x1 (ix2 1 r) := by
  unfold k0_pay7 k0_pay6
  simp only [shapeCast_self]
  exact slice2_axis0_apply 1 x1 _ 0 r 1 rfl

/-! ## The features: four chunks of 128 lanes -/

/-- A sum over 512 lanes is the sum of its four 128-lane chunks. -/
theorem sum_512_split {M : Type*} [AddCommMonoid M] (g : Fin 512 → M) :
    ∑ d : Fin 512, g d = (∑ l : Fin 128, g ⟨l.val, by omega⟩) + (∑ l : Fin 128, g ⟨128 + l.val, by omega⟩)
       + (∑ l : Fin 128, g ⟨256 + l.val, by omega⟩) + (∑ l : Fin 128, g ⟨384 + l.val, by omega⟩) := by
  have h := Fin.sum_univ_add (a := 128 + 128 + 128) (b := 128) g
  rw [Fin.sum_univ_add (a := 128 + 128) (b := 128), Fin.sum_univ_add (a := 128) (b := 128)] at h
  exact h

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Inserting lane `l` into the row index `r` of a chunk gives `(r, l)`. -/
theorem lift_lane (r : Fin 4096) (l : Fin 128) :
    reduces_S4096x128_S4096.lift (ix1 r) l = ix2 r l := by
  funext a; match a with | ⟨0, _⟩ => rfl | ⟨1, _⟩ => rfl

/-- A chunk's sum of squares, as a column, at row `r`. -/
theorem chunk_apply (v : Vec Ideal S4096x128 .f32) (hφ : FKind.Formats .f32)
    (hacc : (0x00000000#32 : BitVec 32) = 0x00000000#32) (r : Fin 4096) :
    shapeCast S4096x1 (multiReduction (F := Ideal) .add [1] S4096 (mulf (F := Ideal) v v) 0x00000000#32 reduces_S4096x128_S4096 hφ hacc)
      shapeCasts_S4096_S4096x1 (ix2 r 0) = ∑ l : Fin 128, v (ix2 r l) * v (ix2 r l) := by
  refine (shapeCast_a_a1_apply _ _ r 0).trans ?_
  refine (Ideal.multiReduction_add_single (mulf (F := Ideal) v v) _ reduces_S4096x128_S4096 hφ hacc (ix1 r)).trans ?_
  show ∑ l : Fin 128, (mulf (F := Ideal) v v) (reduces_S4096x128_S4096.lift (ix1 r) l) = _
  refine Finset.sum_congr rfl fun l _ => ?_
  rw [lift_lane]
  rfl

/-- The four chunks' sums of squares, from zero, are the row's sum of squares. -/
theorem feat_sum (x2 : Vec Ideal S4096x512 .f32) (v55 v60 v65 v70 : Vec Ideal S4096x128 .f32)
    (h55 : ∀ (r : Fin 4096) (l : Fin 128), v55 (ix2 r l) = x2 (ix2 r ⟨l.val, by omega⟩))
    (h60 : ∀ (r : Fin 4096) (l : Fin 128), v60 (ix2 r l) = x2 (ix2 r ⟨128 + l.val, by omega⟩))
    (h65 : ∀ (r : Fin 4096) (l : Fin 128), v65 (ix2 r l) = x2 (ix2 r ⟨256 + l.val, by omega⟩))
    (h70 : ∀ (r : Fin 4096) (l : Fin 128), v70 (ix2 r l) = x2 (ix2 r ⟨384 + l.val, by omega⟩))
    (r : Fin 4096) :
    (FloatOps.ofBits (F := Ideal) .f32 0x00000000#32 + (∑ l : Fin 128, v55 (ix2 r l) * v55 (ix2 r l))
        + (∑ l : Fin 128, v60 (ix2 r l) * v60 (ix2 r l)) + (∑ l : Fin 128, v65 (ix2 r l) * v65 (ix2 r l))
        + (∑ l : Fin 128, v70 (ix2 r l) * v70 (ix2 r l)) : EReal)
      = ∑ d : Fin 512, x2 (ix2 r d) * x2 (ix2 r d) := by
  show (Ideal.ofBits .f32 0x00000000#32 + _ + _ + _ + _ : EReal) = _
  rw [Ideal.ofBits_zero_f32, zero_add, sum_512_split fun d => x2 (ix2 r d) * x2 (ix2 r d)]
  simp only [h55, h60, h65, h70]

theorem pay16_apply (v20 : IVec S1x4096 32) (v32 v35 v39 v40 : FVec Ideal S1x4096 .f32)
    (x2 : Vec Ideal S4096x512 .f32) (v55 v60 v65 v70 : Vec Ideal S4096x128 .f32)
    (h55 : ∀ (r : Fin 4096) (l : Fin 128), v55 (ix2 r l) = x2 (ix2 r ⟨l.val, by omega⟩))
    (h60 : ∀ (r : Fin 4096) (l : Fin 128), v60 (ix2 r l) = x2 (ix2 r ⟨128 + l.val, by omega⟩))
    (h65 : ∀ (r : Fin 4096) (l : Fin 128), v65 (ix2 r l) = x2 (ix2 r ⟨256 + l.val, by omega⟩))
    (h70 : ∀ (r : Fin 4096) (l : Fin 128), v70 (ix2 r l) = x2 (ix2 r ⟨384 + l.val, by omega⟩))
    (r : Fin 4096) :
    k0_pay16 (F := Ideal) v20 v32 v35 v39 v40 v55 v60 v65 v70 (ix2 r 0)
      = Scalar.select (FloatOps.cmpf (F := Ideal) .one (k0_pay13 (F := Ideal) v20 v32 v35 v39 v40 (ix2 r 2))
            (Ideal.ofBits .f32 0x00000000#32))
          (featNorm (fun d => x2 (ix2 r d)) * featNorm (fun d => x2 (ix2 r d)))
          (shortfall (fun d => x2 (ix2 r d)) * shortfall (fun d => x2 (ix2 r d))) := by
  unfold k0_pay16
  simp only [select_apply, cmpf_apply, mulf_apply, sqrt_apply, addf_apply, maximumf_apply, subf_apply, broadcast_apply]
  rw [chunk_apply v55 _ _ r, chunk_apply v60 _ _ r, chunk_apply v65 _ _ r, chunk_apply v70 _ _ r,
    slice2_axis1_apply 2 _ _ r 0 2 rfl, feat_sum x2 v55 v60 v65 v70 h55 h60 h65 h70 r]
  rfl

/-! ## The flag -/

/-- "The flag word is not zero" as a bit. -/
theorem flag_bit (w : BitVec 32) : IntOp.cmpi .ne w 0#32 = if w = 0#32 then 0#1 else 1#1 := by
  show BitVec.ofBool (w != 0#32) = _
  by_cases h : w = 0#32
  · rw [if_pos h, h]; rfl
  · rw [if_neg h, (bne_iff_ne).mpr h]; rfl

/-- The float of a bit differs from `0` exactly when the bit is set. -/
theorem flag_float_bit (b : BitVec 1) :
    FloatOps.cmpf (F := Ideal) .one (FloatOps.sitofp (F := Ideal) .f32 (b.setWidth 32)) (Ideal.ofBits .f32 0x00000000#32) = b := by
  rw [float_of_bit, Ideal.ofBits_zero_f32]
  show Ideal.cmp .one _ 0 = b
  rcases BitVec.eq_zero_or_eq_one b with rfl | rfl
  · simp [Ideal.cmp]
  · simp [Ideal.cmp]

/-- The first running sum after a tile: each lane gains the tile's weighted costs. -/
theorem num_step (x0 : Vec Ideal S13x4096 .f32) (x1 : Vec Ideal S2x4096 .i32) (x2 : Vec Ideal S4096x512 .f32) (x3 : Vec Ideal S13x1 .f32)
    (v55 v60 v65 v70 : Vec Ideal S4096x128 .f32)
    (h55 : ∀ (r : Fin 4096) (l : Fin 128), v55 (ix2 r l) = x2 (ix2 r ⟨l.val, by omega⟩))
    (h60 : ∀ (r : Fin 4096) (l : Fin 128), v60 (ix2 r l) = x2 (ix2 r ⟨128 + l.val, by omega⟩))
    (h65 : ∀ (r : Fin 4096) (l : Fin 128), v65 (ix2 r l) = x2 (ix2 r ⟨256 + l.val, by omega⟩))
    (h70 : ∀ (r : Fin 4096) (l : Fin 128), v70 (ix2 r l) = x2 (ix2 r ⟨384 + l.val, by omega⟩))
    (cst : Ideal .f32) (hcst : cst = Ideal.ofBits .f32 0x38D1B717#32)
    (acc : Vec Ideal S1x1x128 .f32)
    (hy : ∀ r : Fin 4096, 0 ≤ (x1 (ix2 0 r)).toInt ∧ (x1 (ix2 0 r)).toInt < 13)
    (l : Fin 128) :
    k0_pay1 (F := Ideal)
        (k0_pay14 (k0_pay7 x1) (k0_pay9 x1 x3) (k0_pay10 x0 x1) (k0_pay11 x0) (k0_pay12 (F := Ideal)))
        (k0_pay15 (k0_pay7 x1) (k0_pay9 x1 x3) (k0_pay10 x0 x1) (k0_pay11 x0) (k0_pay12 (F := Ideal)))
        (k0_pay16 (k0_pay7 x1) (k0_pay9 x1 x3) (k0_pay10 x0 x1) (k0_pay11 x0) (k0_pay12 (F := Ideal)) v55 v60 v65 v70)
        cst acc (ix3 0 0 l)
      = acc (ix3 0 0 l) + ∑ r : Fin 4096,
          rowTerm (fun c => x3 (ix2 c 0)) (fun c => x0 (ix2 c r)) (x1 (ix2 0 r)) (decide (x1 (ix2 1 r) ≠ 0#32)) (fun d => x2 (ix2 r d)) := by
  subst hcst
  refine (pay1_apply _ _ _ _ acc l).trans ?_
  congr 1
  refine Finset.sum_congr rfl fun r _ => ?_
  rw [pay15_apply, pay13_col1, pay9_apply x1 x3 r (hy r), pay14_apply, pay13_col0,
    pay16_apply _ _ _ _ _ x2 v55 v60 v65 v70 h55 h60 h65 h70 r, pay13_col2,
    pay7_apply, pay11_apply, pay12_apply, pay10_apply x0 x1 r (hy r), flag_float_bit, flag_bit]
  unfold rowTerm rowWeight rowCost costUnknown costKnown
  by_cases hf : x1 (ix2 1 r) = 0#32
  · have hd : decide (x1 (ix2 1 r) ≠ 0#32) = false := by simp [hf]
    rw [if_pos hf, select_zero, select_zero, hd, zero_sub]
    rfl
  · have hd : decide (x1 (ix2 1 r) ≠ 0#32) = true := by simp [hf]
    rw [if_neg hf, select_one, select_one, hd]
    rfl

/-- The second running sum after a tile: each lane gains the tile's weights. -/
theorem den_step (x0 : Vec Ideal S13x4096 .f32) (x1 : Vec Ideal S2x4096 .i32) (x3 : Vec Ideal S13x1 .f32)
    (acc : Vec Ideal S1x1x128 .f32)
    (hy : ∀ r : Fin 4096, 0 ≤ (x1 (ix2 0 r)).toInt ∧ (x1 (ix2 0 r)).toInt < 13)
    (l : Fin 128) :
    k0_pay2 (F := Ideal)
        (k0_pay15 (k0_pay7 x1) (k0_pay9 x1 x3) (k0_pay10 x0 x1) (k0_pay11 x0) (k0_pay12 (F := Ideal)))
        acc (ix3 0 0 l)
      = acc (ix3 0 0 l) + ∑ r : Fin 4096, rowWeight (fun c => x3 (ix2 c 0)) (x1 (ix2 0 r)) := by
  refine (pay2_apply _ acc l).trans ?_
  congr 1
  refine Finset.sum_congr rfl fun r _ => ?_
  rw [pay15_apply, pay13_col1, pay9_apply x1 x3 r (hy r)]
  rfl

end Cert.KernelIdeal.TileValue

end
-- ==== Proof.Steps.lean ====
import proofs.«414827_j7971459301860_3_alg».proof.Proof.Gen.KernelIdeal.Frame
import Idealize.ShloMosaic.Lib.Pipeline.Value
import Idealize.ShloMosaic.Lib.Tactic

set_option maxRecDepth 16384

noncomputable section

/-! # What one grid point leaves in the two running sums

The kernel keeps two 128-lane running sums between grid points. At every point it adds the tile's
weighted costs to every lane of the first and the tile's weights to every lane of the second; at the
first point of a half of the batch it first resets both to zero; at the last point of a half it
copies both to the outputs. Read off the three control cases' runs, each leaves the same step of
the point's four input blocks applied to what the point before left (or to the zero block). -/

namespace Cert.KernelIdeal.Steps

open Cert.KernelIdeal Cert.KernelIdeal.Gen
open Idealize.ShloMosaic Idealize.ShloMosaic.TcCoe Idealize.ShloMosaic.Tactic
open Idealize.SL Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The 128-lane chunk of a feature block that starts at lane `o`. -/
abbrev chunk (x2 : Vec F S4096x512 .f32) (o : Nat) (h : ∀ a, (![0, o] : Fin 2 → Nat) a + S4096x128.size a ≤ S4096x512.size a) : Vec F S4096x128 .f32 :=
  View.ld x2 (Rect.unit (s := S4096x512) ![0, o] S4096x128.size h)

/-- The first running sum after a point: the point's blocks and what the sum held before. -/
def numStep (x0 : Vec F S13x4096 .f32) (x1 : Vec F S2x4096 .i32) (x2 : Vec F S4096x512 .f32) (x3 : Vec F S13x1 .f32)
    (acc : Vec F S1x1x128 .f32) : Vec F S1x1x128 .f32 :=
  k0_pay1 (k0_pay14 (k0_pay7 x1) (k0_pay9 x1 x3) (k0_pay10 x0 x1) (k0_pay11 x0) (k0_pay12 (F := F))) (k0_pay15 (k0_pay7 x1) (k0_pay9 x1 x3) (k0_pay10 x0 x1) (k0_pay11 x0) (k0_pay12 (F := F)))
    (k0_pay16 (k0_pay7 x1) (k0_pay9 x1 x3) (k0_pay10 x0 x1) (k0_pay11 x0) (k0_pay12 (F := F))
      (chunk x2 0 inb_S4096x512_S4096x128_0_0) (chunk x2 128 inb_S4096x512_S4096x128_0_128)
      (chunk x2 256 inb_S4096x512_S4096x128_0_256) (chunk x2 384 inb_S4096x512_S4096x128_0_384))
    (FloatOps.ofBits .f32 0x38D1B717#32) acc

/-- The second running sum after a point. -/
def denStep (x0 : Vec F S13x4096 .f32) (x1 : Vec F S2x4096 .i32) (x3 : Vec F S13x1 .f32)
    (acc : Vec F S1x1x128 .f32) : Vec F S1x1x128 .f32 :=
  k0_pay2 (k0_pay15 (k0_pay7 x1) (k0_pay9 x1 x3) (k0_pay10 x0 x1) (k0_pay11 x0) (k0_pay12 (F := F))) acc

/-! ## The three control cases -/
/-- A middle point of a half: the first sum steps from what the point before left. -/
theorem sout_B_0 (c : Dev nD) (i : grid0.Coords) (arg2 : Memref sig .tc .vmem S13x4096 .f32) (harg2 : arg2.IsWhole) (arg3 : Memref sig .tc .vmem S2x4096 .i32) (harg3 : arg3.IsWhole) (arg4 : Memref sig .tc .vmem S4096x512 .f32) (harg4 : arg4.IsWhole) (arg5 : Memref sig .tc .vmem S13x1 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : ¬cond0_1 i)
    (x0 : Vec F S13x4096 .f32) (x1 : Vec F S2x4096 .i32) (x2 : Vec F S4096x512 .f32) (x3 : Vec F S13x1 .f32) (xs0 : Vec F S1x1x128 .f32) (xs1 : Vec F S1x1x128 .f32) :
    sout0_B_0 c i arg2 harg2 arg3 harg3 arg4 harg4 arg5 harg5 arg6 harg6 arg7 harg7 arg8 harg8 arg9 harg9 hc0 hc1 x0 x1 x2 x3 xs0 xs1 = numStep x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero (S := S1x1x128) hz3]
  simp only [View.readAt_eq_ld, harg2.read_unread, harg3.read_unread, harg4.read_unread, harg5.read_unread, harg8.read_unread, harg9.read_unread,
    View.ld_unit_zero (S := S13x4096) hz2, View.ld_unit_zero (S := S2x4096) hz2, View.ld_unit_zero (S := S13x1) hz2,
    View.ld_unit_zero (S := S1x1x128) hz3, View.readCov_unit_zero (S := S1x1x128) _ hz3]
  rfl
/-- … and so does the second. -/
theorem sout_B_1 (c : Dev nD) (i : grid0.Coords) (arg2 : Memref sig .tc .vmem S13x4096 .f32) (harg2 : arg2.IsWhole) (arg3 : Memref sig .tc .vmem S2x4096 .i32) (harg3 : arg3.IsWhole) (arg4 : Memref sig .tc .vmem S4096x512 .f32) (harg4 : arg4.IsWhole) (arg5 : Memref sig .tc .vmem S13x1 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : ¬cond0_1 i)
    (x0 : Vec F S13x4096 .f32) (x1 : Vec F S2x4096 .i32) (x2 : Vec F S4096x512 .f32) (x3 : Vec F S13x1 .f32) (xs0 : Vec F S1x1x128 .f32) (xs1 : Vec F S1x1x128 .f32) :
    sout0_B_1 c i arg2 harg2 arg3 harg3 arg4 harg4 arg5 harg5 arg6 harg6 arg7 harg7 arg8 harg8 arg9 harg9 hc0 hc1 x0 x1 x2 x3 xs0 xs1 = denStep x0 x1 x3 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero (S := S1x1x128) hz3]
  simp only [View.readAt_eq_ld, harg2.read_unread, harg3.read_unread, harg4.read_unread, harg5.read_unread, harg8.read_unread, harg9.read_unread,
    View.ld_unit_zero (S := S13x4096) hz2, View.ld_unit_zero (S := S2x4096) hz2, View.ld_unit_zero (S := S13x1) hz2,
    View.ld_unit_zero (S := S1x1x128) hz3, View.readCov_unit_zero (S := S1x1x128) _ hz3]
  rfl
/-- The last point of a half steps the sums the same way … -/
theorem sout_C_0 (c : Dev nD) (i : grid0.Coords) (arg2 : Memref sig .tc .vmem S13x4096 .f32) (harg2 : arg2.IsWhole) (arg3 : Memref sig .tc .vmem S2x4096 .i32) (harg3 : arg3.IsWhole) (arg4 : Memref sig .tc .vmem S4096x512 .f32) (harg4 : arg4.IsWhole) (arg5 : Memref sig .tc .vmem S13x1 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 : Vec F S13x4096 .f32) (x1 : Vec F S2x4096 .i32) (x2 : Vec F S4096x512 .f32) (x3 : Vec F S13x1 .f32) (xs0 : Vec F S1x1x128 .f32) (xs1 : Vec F S1x1x128 .f32) :
    sout0_C_0 c i arg2 harg2 arg3 harg3 arg4 harg4 arg5 harg5 arg6 harg6 arg7 harg7 arg8 harg8 arg9 harg9 hc0 hc1 x0 x1 x2 x3 xs0 xs1 = numStep x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1x1x128) hz3]
  simp only [View.readAt_eq_ld, harg2.read_unread, harg3.read_unread, harg4.read_unread, harg5.read_unread, harg8.read_unread, harg9.read_unread,
    View.ld_unit_zero (S := S13x4096) hz2, View.ld_unit_zero (S := S2x4096) hz2, View.ld_unit_zero (S := S13x1) hz2,
    View.ld_unit_zero (S := S1x1x128) hz3, View.readCov_unit_zero (S := S1x1x128) _ hz3]
  rfl

theorem sout_C_1 (c : Dev nD) (i : grid0.Coords) (arg2 : Memref sig .tc .vmem S13x4096 .f32) (harg2 : arg2.IsWhole) (arg3 : Memref sig .tc .vmem S2x4096 .i32) (harg3 : arg3.IsWhole) (arg4 : Memref sig .tc .vmem S4096x512 .f32) (harg4 : arg4.IsWhole) (arg5 : Memref sig .tc .vmem S13x1 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 : Vec F S13x4096 .f32) (x1 : Vec F S2x4096 .i32) (x2 : Vec F S4096x512 .f32) (x3 : Vec F S13x1 .f32) (xs0 : Vec F S1x1x128 .f32) (xs1 : Vec F S1x1x128 .f32) :
    sout0_C_1 c i arg2 harg2 arg3 harg3 arg4 harg4 arg5 harg5 arg6 harg6 arg7 harg7 arg8 harg8 arg9 harg9 hc0 hc1 x0 x1 x2 x3 xs0 xs1 = denStep x0 x1 x3 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1x1x128) hz3]
  simp only [View.readAt_eq_ld, harg2.read_unread, harg3.read_unread, harg4.read_unread, harg5.read_unread, harg8.read_unread, harg9.read_unread,
    View.ld_unit_zero (S := S13x4096) hz2, View.ld_unit_zero (S := S2x4096) hz2, View.ld_unit_zero (S := S13x1) hz2,
    View.ld_unit_zero (S := S1x1x128) hz3, View.readCov_unit_zero (S := S1x1x128) _ hz3]
  rfl
/-- … and copies the stepped sums to the two outputs. -/
theorem out_C_4 (c : Dev nD) (i : grid0.Coords) (arg2 : Memref sig .tc .vmem S13x4096 .f32) (harg2 : arg2.IsWhole) (arg3 : Memref sig .tc .vmem S2x4096 .i32) (harg3 : arg3.IsWhole) (arg4 : Memref sig .tc .vmem S4096x512 .f32) (harg4 : arg4.IsWhole) (arg5 : Memref sig .tc .vmem S13x1 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 : Vec F S13x4096 .f32) (x1 : Vec F S2x4096 .i32) (x2 : Vec F S4096x512 .f32) (x3 : Vec F S13x1 .f32) (xs0 : Vec F S1x1x128 .f32) (xs1 : Vec F S1x1x128 .f32) :
    out0_C_4 c i arg2 harg2 arg3 harg3 arg4 harg4 arg5 harg5 arg6 harg6 arg7 harg7 arg8 harg8 arg9 harg9 hc0 hc1 x0 x1 x2 x3 xs0 xs1 = numStep x0 x1 x2 x3 xs0 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1x1x128) hz3]
  simp only [View.readAt_eq_ld, harg2.read_unread, harg3.read_unread, harg4.read_unread, harg5.read_unread, harg8.read_unread, harg9.read_unread,
    View.ld_unit_zero (S := S13x4096) hz2, View.ld_unit_zero (S := S2x4096) hz2, View.ld_unit_zero (S := S13x1) hz2,
    View.ld_unit_zero (S := S1x1x128) hz3, View.readCov_unit_zero (S := S1x1x128) _ hz3]
  rfl

theorem out_C_5 (c : Dev nD) (i : grid0.Coords) (arg2 : Memref sig .tc .vmem S13x4096 .f32) (harg2 : arg2.IsWhole) (arg3 : Memref sig .tc .vmem S2x4096 .i32) (harg3 : arg3.IsWhole) (arg4 : Memref sig .tc .vmem S4096x512 .f32) (harg4 : arg4.IsWhole) (arg5 : Memref sig .tc .vmem S13x1 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 : Vec F S13x4096 .f32) (x1 : Vec F S2x4096 .i32) (x2 : Vec F S4096x512 .f32) (x3 : Vec F S13x1 .f32) (xs0 : Vec F S1x1x128 .f32) (xs1 : Vec F S1x1x128 .f32) :
    out0_C_5 c i arg2 harg2 arg3 harg3 arg4 harg4 arg5 harg5 arg6 harg6 arg7 harg7 arg8 harg8 arg9 harg9 hc0 hc1 x0 x1 x2 x3 xs0 xs1 = denStep x0 x1 x3 xs1 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1x1x128) hz3]
  simp only [View.readAt_eq_ld, harg2.read_unread, harg3.read_unread, harg4.read_unread, harg5.read_unread, harg8.read_unread, harg9.read_unread,
    View.ld_unit_zero (S := S13x4096) hz2, View.ld_unit_zero (S := S2x4096) hz2, View.ld_unit_zero (S := S13x1) hz2,
    View.ld_unit_zero (S := S1x1x128) hz3, View.readCov_unit_zero (S := S1x1x128) _ hz3]
  rfl
/-- The first point of a half resets both sums to the zero block, then steps them. -/
theorem sout_A_0 (c : Dev nD) (i : grid0.Coords) (arg2 : Memref sig .tc .vmem S13x4096 .f32) (harg2 : arg2.IsWhole) (arg3 : Memref sig .tc .vmem S2x4096 .i32) (harg3 : arg3.IsWhole) (arg4 : Memref sig .tc .vmem S4096x512 .f32) (harg4 : arg4.IsWhole) (arg5 : Memref sig .tc .vmem S13x1 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i)
    (x0 : Vec F S13x4096 .f32) (x1 : Vec F S2x4096 .i32) (x2 : Vec F S4096x512 .f32) (x3 : Vec F S13x1 .f32) :
    sout0_A_0 c i arg2 harg2 arg3 harg3 arg4 harg4 arg5 harg5 arg6 harg6 arg7 harg7 arg8 harg8 arg9 harg9 hc0 hc1 x0 x1 x2 x3 = numStep x0 x1 x2 x3 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1x128) hz3]
  simp only [View.readAt_eq_ld, harg2.read_unread, harg3.read_unread, harg4.read_unread, harg5.read_unread, harg8.read_unread, harg9.read_unread,
    View.ld_unit_zero (S := S13x4096) hz2, View.ld_unit_zero (S := S2x4096) hz2, View.ld_unit_zero (S := S13x1) hz2,
    View.ld_unit_zero (S := S1x1x128) hz3, View.readCov_unit_zero (S := S1x1x128) _ hz3]
  rfl

theorem sout_A_1 (c : Dev nD) (i : grid0.Coords) (arg2 : Memref sig .tc .vmem S13x4096 .f32) (harg2 : arg2.IsWhole) (arg3 : Memref sig .tc .vmem S2x4096 .i32) (harg3 : arg3.IsWhole) (arg4 : Memref sig .tc .vmem S4096x512 .f32) (harg4 : arg4.IsWhole) (arg5 : Memref sig .tc .vmem S13x1 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i)
    (x0 : Vec F S13x4096 .f32) (x1 : Vec F S2x4096 .i32) (x2 : Vec F S4096x512 .f32) (x3 : Vec F S13x1 .f32) :
    sout0_A_1 c i arg2 harg2 arg3 harg3 arg4 harg4 arg5 harg5 arg6 harg6 arg7 harg7 arg8 harg8 arg9 harg9 hc0 hc1 x0 x1 x2 x3 = denStep x0 x1 x3 (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1x128) hz3]
  simp only [View.readAt_eq_ld, harg2.read_unread, harg3.read_unread, harg4.read_unread, harg5.read_unread, harg8.read_unread, harg9.read_unread,
    View.ld_unit_zero (S := S13x4096) hz2, View.ld_unit_zero (S := S2x4096) hz2, View.ld_unit_zero (S := S13x1) hz2,
    View.ld_unit_zero (S := S1x1x128) hz3, View.readCov_unit_zero (S := S1x1x128) _ hz3]
  rfl

end Cert.KernelIdeal.Steps
end
-- ==== Proof.Blocks.lean ====
import proofs.«414827_j7971459301860_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

/-! # The four input blocks of a grid point, read off the argument arrays

Point `t` of the grid (the 64 tiles in order) stages rows `4096·t … 4096·t + 4095` of the batch:
the logits transposed (class-major), the labels and the widened flags stacked as two rows, the
features as they are, and the thirteen weights as a column. Each block entry is the argument
array's entry at that row. -/

namespace Cert.KernelIdeal.Blocks

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-! ## Which block each window stages at a point (decided over the 64 points) -/

theorem idx_w0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx_w1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem idx_w2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_w3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-! ## The arrays the region finds: the host lines before it -/

/-- The logits, transposed. -/
theorem V_v4 (c : Dev nD) : (V m c main_v4 : S13x262144.Idx → F .f32)
    = transpose S13x262144 [1, 0] (m ((c : Thread nD τ).loc main_arg0)) transposes_S262144x13_S13x262144_1_0 := by
  show StableHlo.after hostOps0 (fun b => m (c, b)) (Proc.devRef .tc main_v4) = _
  after_results

/-- The labels over the widened flags. -/
theorem V_v3 (c : Dev nD) : (V m c main_v3 : S2x262144.Idx → BitVec 32)
    = concatenate S2x262144 0
        [⟨S1x262144, broadcastInDim S1x262144 ![1] bcast_S262144_S1x262144_1 (m ((c : Thread nD τ).loc main_arg1))⟩,
         ⟨S1x262144, broadcastInDim S1x262144 ![1] bcast_S262144_S1x262144_1 (extui 32 (m ((c : Thread nD τ).loc main_arg2)) natLt_1_32)⟩]
        concatenates_S1x262144_S1x262144_S2x262144_d0 := by
  show StableHlo.after hostOps0 (fun b => m (c, b)) (Proc.devRef .tc main_v3) = _
  after_results

/-- The weights as a column. -/
theorem V_v5 (c : Dev nD) : (V m c main_v5 : S13x1.Idx → F .f32)
    = shapeCast S13x1 (m ((c : Thread nD τ).loc main_arg4)) shapeCasts_S13_S13x1 := by
  show StableHlo.after hostOps0 (fun b => m (c, b)) (Proc.devRef .tc main_v5) = _
  after_results
  rfl

/-! ## The blocks, entry by entry. Row `r` of tile `t` is row `b = 4096·t + r` of the batch. -/

/-- Class `k` of row `r` of the logits block is the logit of class `k` of row `b`. -/
theorem blk0 (c : Dev nD) (t : Fin cfg0.N) (k : Fin 13) (r : Fin 4096) (b : Fin 262144) (hb : b.val = t.val * 4096 + r.val) :
    (iblk m c 0 t : Vec F S13x4096 .f32) (ix2 k r) = m ((c : Thread nD τ).loc main_arg0) (ix2 b k) := by
  have e : (iblk m c 0 t : Vec F S13x4096 .f32) (ix2 k r) = (V m c main_v4 : S13x262144.Idx → F .f32) (ix2 k b) := by
    unfold iblk
    rw [View.read_apply]
    show V m c main_v4 _ = V m c main_v4 _
    congr 1
    funext a
    apply Fin.ext
    match a with
    | ⟨0, _⟩ => show win0_0.index t 0 * 13 + 1 * k.val = k.val; rw [(idx_w0 t).1]; omega
    | ⟨1, _⟩ => show win0_0.index t 1 * 4096 + 1 * r.val = b.val; rw [(idx_w0 t).2]; omega
  rw [e, V_v4]
  exact transpose_ix2_apply _ _ k b

/-- Row `r`'s label word. -/
theorem blk1_label (c : Dev nD) (t : Fin cfg0.N) (r : Fin 4096) (b : Fin 262144) (hb : b.val = t.val * 4096 + r.val) :
    (iblk m c 1 t : Vec F S2x4096 .i32) (ix2 0 r) = m ((c : Thread nD τ).loc main_arg1) (ix1 b) := by
  have e : (iblk m c 1 t : Vec F S2x4096 .i32) (ix2 0 r) = (V m c main_v3 : S2x262144.Idx → BitVec 32) (ix2 0 b) := by
    unfold iblk
    rw [View.read_apply]
    show V m c main_v3 _ = V m c main_v3 _
    congr 1
    funext a
    apply Fin.ext
    match a with
    | ⟨0, _⟩ => show win0_1.index t 0 * 2 + 1 * 0 = 0; rw [(idx_w1 t).1]
    | ⟨1, _⟩ => show win0_1.index t 1 * 4096 + 1 * r.val = b.val; rw [(idx_w1 t).2]; omega
  rw [e, V_v3]
  refine (concatenate_pair_apply_left (t := S2x262144) (s₁ := S1x262144) (s₂ := S1x262144) (0 : Fin 2) _ _ concatenates_S1x262144_S1x262144_S2x262144_d0 (ix2 (0 : Fin 2) b) rfl (ix2 (0 : Fin 1) b) (fun a => by
    match a with
    | ⟨0, _⟩ => rfl
    | ⟨1, _⟩ => rfl)).trans ?_
  exact broadcastInDim_apply _ _ _ _ (ix1 b) (fun a => by
    match a with
    | ⟨0, _⟩ => rfl)

/-- Row `r`'s flag, widened to a word. -/
theorem blk1_flag (c : Dev nD) (t : Fin cfg0.N) (r : Fin 4096) (b : Fin 262144) (hb : b.val = t.val * 4096 + r.val) :
    (iblk m c 1 t : Vec F S2x4096 .i32) (ix2 1 r) = (m ((c : Thread nD τ).loc main_arg2) (ix1 b)).setWidth 32 := by
  have e : (iblk m c 1 t : Vec F S2x4096 .i32) (ix2 1 r) = (V m c main_v3 : S2x262144.Idx → BitVec 32) (ix2 1 b) := by
    unfold iblk
    rw [View.read_apply]
    show V m c main_v3 _ = V m c main_v3 _
    congr 1
    funext a
    apply Fin.ext
    match a with
    | ⟨0, _⟩ => show win0_1.index t 0 * 2 + 1 * 1 = 1; rw [(idx_w1 t).1]
    | ⟨1, _⟩ => show win0_1.index t 1 * 4096 + 1 * r.val = b.val; rw [(idx_w1 t).2]; omega
  rw [e, V_v3]
  refine (concatenate_pair_apply_right (t := S2x262144) (s₁ := S1x262144) (s₂ := S1x262144) (0 : Fin 2) _ _ concatenates_S1x262144_S1x262144_S2x262144_d0 (ix2 (1 : Fin 2) b) rfl rfl (ix2 (0 : Fin 1) b) (fun a ha => by
    match a with
    | ⟨0, _⟩ => exact absurd rfl ha
    | ⟨1, _⟩ => rfl) (by show 0 + 1 = 1; rfl)).trans ?_
  exact broadcastInDim_apply _ _ _ _ (ix1 b) (fun a => by
    match a with
    | ⟨0, _⟩ => rfl)

/-- Feature `d` of row `r`. -/
theorem blk2 (c : Dev nD) (t : Fin cfg0.N) (r : Fin 4096) (d : Fin 512) (b : Fin 262144) (hb : b.val = t.val * 4096 + r.val) :
    (iblk m c 2 t : Vec F S4096x512 .f32) (ix2 r d) = m ((c : Thread nD τ).loc main_arg3) (ix2 b d) := by
  unfold iblk
  rw [View.read_apply]
  show V m c main_arg3 _ = _
  rw [V_main_arg3]
  congr 1
  funext a
  apply Fin.ext
  match a with
  | ⟨0, _⟩ => show win0_2.index t 0 * 4096 + 1 * r.val = b.val; rw [(idx_w2 t).1]; omega
  | ⟨1, _⟩ => show win0_2.index t 1 * 512 + 1 * d.val = d.val; rw [(idx_w2 t).2]; omega

/-- The weight of class `k`. -/
theorem blk3 (c : Dev nD) (t : Fin cfg0.N) (k : Fin 13) :
    (iblk m c 3 t : Vec F S13x1 .f32) (ix2 k 0) = m ((c : Thread nD τ).loc main_arg4) (ix1 k) := by
  have e : (iblk m c 3 t : Vec F S13x1 .f32) (ix2 k 0) = (V m c main_v5 : S13x1.Idx → F .f32) (ix2 k 0) := by
    unfold iblk
    rw [View.read_apply]
    show V m c main_v5 _ = V m c main_v5 _
    congr 1
    funext a
    apply Fin.ext
    match a with
    | ⟨0, _⟩ => show win0_3.index t 0 * 13 + 1 * k.val = k.val; rw [(idx_w3 t).1]; omega
    | ⟨1, _⟩ => show win0_3.index t 1 * 1 + 1 * 0 = 0; rw [(idx_w3 t).2]
  rw [e, V_v5]
  exact shapeCast_apply _ _ _ (ix1 k) (by
    rw [Shape.rowMajor_val_two, Shape.rowMajor_val_one]
    show k.val = k.val * 1 + 0
    omega)

end Cert.KernelIdeal.Blocks
end
-- ==== Proof.Accum.lean ====
import proofs.«414827_j7971459301860_3_alg».proof.Proof.Steps
import proofs.«414827_j7971459301860_3_alg».proof.Proof.Blocks
import proofs.«414827_j7971459301860_3_alg».proof.Proof.PreRange
import proofs.«414827_j7971459301860_3_alg».proof.Proof.RowLoss
import Idealize.ShloMosaic.PureOps.Ideal.Laws
import Idealize.ShloMosaic.Lib.Pipeline.Value
import Idealize.ShloMosaic.Lib.ValueIdx

set_option maxRecDepth 16384

noncomputable section

/-! # The running sums over a half of the batch

At the extended reals a grid point adds to every lane of the first running sum the weighted costs of
its tile's 4096 rows, and to every lane of the second their weights (the two laws below, which are
proved from the kernel's arithmetic elsewhere and taken here as hypotheses). The sums are reset at
the first tile of a half, so after tile `32q + j` each lane holds the total over tiles
`32q … 32q + j`; the last tile of a half copies the totals to the outputs. -/

namespace Cert.KernelIdeal.Accum

open Cert.KernelIdeal Cert.KernelIdeal.Gen Cert.KernelIdeal.Steps Cert.KernelIdeal.Blocks Cert.Objectosphere
open Idealize.ShloMosaic Idealize.ShloMosaic.TcCoe Idealize.ShloMosaic.ValueIdx
open Idealize.SL Idealize.SL.Sem

/-- What one tile adds to the first running sum, lane by lane. -/
def NumLaw : Prop :=
  ∀ (x0 : Vec Ideal S13x4096 .f32) (x1 : Vec Ideal S2x4096 .i32) (x2 : Vec Ideal S4096x512 .f32) (x3 : Vec Ideal S13x1 .f32)
    (v55 v60 v65 v70 : Vec Ideal S4096x128 .f32)
    (_ : ∀ (r : Fin 4096) (l : Fin 128), v55 (ix2 r l) = x2 (ix2 r ⟨l.val, by omega⟩))
    (_ : ∀ (r : Fin 4096) (l : Fin 128), v60 (ix2 r l) = x2 (ix2 r ⟨128 + l.val, by omega⟩))
    (_ : ∀ (r : Fin 4096) (l : Fin 128), v65 (ix2 r l) = x2 (ix2 r ⟨256 + l.val, by omega⟩))
    (_ : ∀ (r : Fin 4096) (l : Fin 128), v70 (ix2 r l) = x2 (ix2 r ⟨384 + l.val, by omega⟩))
    (cst : Ideal .f32) (_ : cst = Ideal.ofBits .f32 0x38D1B717#32)
    (acc : Vec Ideal S1x1x128 .f32)
    (_ : ∀ r : Fin 4096, 0 ≤ (x1 (ix2 0 r)).toInt ∧ (x1 (ix2 0 r)).toInt < 13)
    (l : Fin 128),
    k0_pay1 (F := Ideal)
        (k0_pay14 (k0_pay7 x1) (k0_pay9 x1 x3) (k0_pay10 x0 x1) (k0_pay11 x0) (k0_pay12 (F := Ideal)))
        (k0_pay15 (k0_pay7 x1) (k0_pay9 x1 x3) (k0_pay10 x0 x1) (k0_pay11 x0) (k0_pay12 (F := Ideal)))
        (k0_pay16 (k0_pay7 x1) (k0_pay9 x1 x3) (k0_pay10 x0 x1) (k0_pay11 x0) (k0_pay12 (F := Ideal)) v55 v60 v65 v70)
        cst acc (ix3 0 0 l)
      = acc (ix3 0 0 l) + ∑ r : Fin 4096,
          rowTerm (fun c => x3 (ix2 c 0)) (fun c => x0 (ix2 c r)) (x1 (ix2 0 r)) (decide (x1 (ix2 1 r) ≠ 0#32)) (fun d => x2 (ix2 r d))

/-- What one tile adds to the second running sum, lane by lane. -/
def DenLaw : Prop :=
  ∀ (x0 : Vec Ideal S13x4096 .f32) (x1 : Vec Ideal S2x4096 .i32) (x3 : Vec Ideal S13x1 .f32)
    (acc : Vec Ideal S1x1x128 .f32)
    (_ : ∀ r : Fin 4096, 0 ≤ (x1 (ix2 0 r)).toInt ∧ (x1 (ix2 0 r)).toInt < 13)
    (l : Fin 128),
    k0_pay2 (F := Ideal)
        (k0_pay15 (k0_pay7 x1) (k0_pay9 x1 x3) (k0_pay10 x0 x1) (k0_pay11 x0) (k0_pay12 (F := Ideal)))
        acc (ix3 0 0 l)
      = acc (ix3 0 0 l) + ∑ r : Fin 4096, rowWeight (fun c => x3 (ix2 c 0)) (x1 (ix2 0 r))

variable (m : (ℓ : Loc nD τ sig) → Buf (Elt Ideal) ℓ)

/-- The five argument arrays on a core. -/
abbrev argL (c : Dev nD) : S262144x13.Idx → EReal := m ((c : Thread nD τ).loc main_arg0)
abbrev argY (c : Dev nD) : S262144.Idx → BitVec 32 := m ((c : Thread nD τ).loc main_arg1)
abbrev argU (c : Dev nD) : S262144.Idx → BitVec 1 := m ((c : Thread nD τ).loc main_arg2)
abbrev argFe (c : Dev nD) : S262144x512.Idx → EReal := m ((c : Thread nD τ).loc main_arg3)
abbrev argW (c : Dev nD) : S13.Idx → EReal := m ((c : Thread nD τ).loc main_arg4)

/-- Tile `n`'s weighted costs, and its weights. -/
def tileNum (c : Dev nD) (n : ℕ) : EReal :=
  ∑ r : Fin 4096, termAt (argL m c) (argY m c) (argU m c) (argFe m c) (argW m c) (rowOf n r)
def tileDen (c : Dev nD) (n : ℕ) : EReal :=
  ∑ r : Fin 4096, weightAt (argY m c) (argW m c) (rowOf n r)

/-- The point's blocks at their literal types. -/
abbrev B0 (c : Dev nD) (t : Fin cfg0.N) : Vec Ideal S13x4096 .f32 := iblk m c 0 t
abbrev B1 (c : Dev nD) (t : Fin cfg0.N) : Vec Ideal S2x4096 .i32 := iblk m c 1 t
abbrev B2 (c : Dev nD) (t : Fin cfg0.N) : Vec Ideal S4096x512 .f32 := iblk m c 2 t
abbrev B3 (c : Dev nD) (t : Fin cfg0.N) : Vec Ideal S13x1 .f32 := iblk m c 3 t

theorem rowOf_val (t : Fin cfg0.N) (r : Fin 4096) : (rowOf t.val r).val = t.val * 4096 + r.val := by
  have hN : t.val < 64 := lt_of_lt_of_eq t.isLt (show cfg0.N = 64 from N_0)
  show (t.val * 4096 + r.val) % 262144 = _
  exact Nat.mod_eq_of_lt (by have := r.isLt; omega)

/-- A word that is a widened bit is nonzero exactly when the bit is set. -/
theorem setWidth_ne_zero_iff (u : BitVec 1) : (u.setWidth 32 ≠ 0#32) ↔ u = 1#1 := by
  revert u; decide

/-- A lane index of the running sums is lane `l` of the one row. -/
theorem lane_eq (i : S1x1x128.Idx) : i = ix3 (0 : Fin 1) (0 : Fin 1) (i 2) := by
  funext a
  match a with
  | ⟨0, _⟩ => exact Fin.ext (by have h : (i 0).val < 1 := (i 0).isLt; show (i 0).val = 0; omega)
  | ⟨1, _⟩ => exact Fin.ext (by have h : (i 1).val < 1 := (i 1).isLt; show (i 1).val = 0; omega)
  | ⟨2, _⟩ => rfl

/-- The chunk of a feature block that starts at lane `o`, entry by entry. -/
theorem chunk_apply (x2 : Vec Ideal S4096x512 .f32) (o : Nat) (h : ∀ a, (![0, o] : Fin 2 → Nat) a + S4096x128.size a ≤ S4096x512.size a)
    (r : Fin 4096) (l : Fin 128) (ho : o + l.val < 512) :
    chunk x2 o h (ix2 r l) = x2 (ix2 r ⟨o + l.val, ho⟩) := by
  show x2 _ = x2 _
  congr 1
  funext a
  apply Fin.ext
  match a with
  | ⟨0, _⟩ => show 0 + 1 * r.val = r.val; omega
  | ⟨1, _⟩ => show o + 1 * l.val = o + l.val; omega

/-- One point's step of the first running sum, at a lane: the tile's weighted costs are added. -/
theorem numStep_point (hnum : NumLaw) (c : Dev nD) (hy : LabelsInRange (argY m c)) (t : Fin cfg0.N)
    (acc : Vec Ideal S1x1x128 .f32) (i : S1x1x128.Idx) :
    numStep (B0 m c t) (B1 m c t) (B2 m c t) (B3 m c t) acc i = acc i + tileNum m c t.val := by
  rw [lane_eq i]
  unfold numStep
  refine (hnum (B0 m c t) (B1 m c t) (B2 m c t) (B3 m c t) _ _ _ _
    (fun r l => chunk_apply (B2 m c t) 0 _ r l (by have := l.isLt; omega) |>.trans (by simp only [Nat.zero_add]))
    (fun r l => chunk_apply (B2 m c t) 128 _ r l (by have := l.isLt; omega))
    (fun r l => chunk_apply (B2 m c t) 256 _ r l (by have := l.isLt; omega))
    (fun r l => chunk_apply (B2 m c t) 384 _ r l (by have := l.isLt; omega))
    _ rfl acc (fun r => by
      show 0 ≤ ((B1 m c t) (ix2 0 r)).toInt ∧ ((B1 m c t) (ix2 0 r)).toInt < 13
      rw [show (B1 m c t) (ix2 0 r) = argY m c (ix1 (rowOf t.val r)) from blk1_label m c t r _ (rowOf_val t r)]
      exact hy _) (i 2)).trans ?_
  congr 1
  unfold tileNum
  refine Finset.sum_congr rfl fun r _ => ?_
  unfold termAt
  have e0 : (fun k : Fin 13 => (B0 m c t) (ix2 k r)) = fun k => argL m c (ix2 (rowOf t.val r) k) :=
    funext fun k => blk0 m c t k r _ (rowOf_val t r)
  have e1 : (B1 m c t) (ix2 0 r) = argY m c (ix1 (rowOf t.val r)) := blk1_label m c t r _ (rowOf_val t r)
  have e1' : (B1 m c t) (ix2 1 r) = (argU m c (ix1 (rowOf t.val r))).setWidth 32 := blk1_flag m c t r _ (rowOf_val t r)
  have e2 : (fun d : Fin 512 => (B2 m c t) (ix2 r d)) = fun d => argFe m c (ix2 (rowOf t.val r) d) :=
    funext fun d => blk2 m c t r d _ (rowOf_val t r)
  have e3 : (fun k : Fin 13 => (B3 m c t) (ix2 k 0)) = fun k => argW m c (ix1 k) :=
    funext fun k => blk3 m c t k
  rw [e0, e1, e1', e2, e3]
  congr 1
  exact decide_eq_decide.mpr (setWidth_ne_zero_iff _)

/-- One point's step of the second running sum, at a lane: the tile's weights are added. -/
theorem denStep_point (hden : DenLaw) (c : Dev nD) (hy : LabelsInRange (argY m c)) (t : Fin cfg0.N)
    (acc : Vec Ideal S1x1x128 .f32) (i : S1x1x128.Idx) :
    denStep (B0 m c t) (B1 m c t) (B3 m c t) acc i = acc i + tileDen m c t.val := by
  rw [lane_eq i]
  unfold denStep
  refine (hden (B0 m c t) (B1 m c t) (B3 m c t) acc (fun r => by
      show 0 ≤ ((B1 m c t) (ix2 0 r)).toInt ∧ ((B1 m c t) (ix2 0 r)).toInt < 13
      rw [show (B1 m c t) (ix2 0 r) = argY m c (ix1 (rowOf t.val r)) from blk1_label m c t r _ (rowOf_val t r)]
      exact hy _) (i 2)).trans ?_
  congr 1
  unfold tileDen
  refine Finset.sum_congr rfl fun r _ => ?_
  unfold weightAt
  have e1 : (B1 m c t) (ix2 0 r) = argY m c (ix1 (rowOf t.val r)) := blk1_label m c t r _ (rowOf_val t r)
  have e3 : (fun k : Fin 13 => (B3 m c t) (ix2 k 0)) = fun k => argW m c (ix1 k) :=
    funext fun k => blk3 m c t k
  rw [e1, e3]

/-! ## The running sums point by point -/

/-- The two running sums after point `n`. -/
abbrev numAt (c : Dev nD) (n : ℕ) (h : n < cfg0.N) : Vec Ideal S1x1x128 .f32 := (outsAt0 m c n h).2.2.1
abbrev denAt (c : Dev nD) (n : ℕ) (h : n < cfg0.N) : Vec Ideal S1x1x128 .f32 := (outsAt0 m c n h).2.2.2

/-- The zero block the reset stores reads zero at every lane. -/
theorem pay3_apply (i : S1x1x128.Idx) : k0_pay3 (F := Ideal) i = 0 := by
  unfold k0_pay3
  rw [shapeCast_self]
  exact Ideal.ofBits_zero_f32
theorem pay4_apply (i : S1x1x128.Idx) : k0_pay4 (F := Ideal) i = 0 := by
  unfold k0_pay4
  rw [shapeCast_self]
  exact Ideal.ofBits_zero_f32

/-- At the first point of a half the sums start again from the zero block. -/
theorem numAt_reset (c : Dev nD) (n : ℕ) (h : n < cfg0.N) (h0 : n % 32 = 0) :
    numAt m c n h = numStep (B0 m c ⟨n, h⟩) (B1 m c ⟨n, h⟩) (B2 m c ⟨n, h⟩) (B3 m c ⟨n, h⟩) (k0_pay3 (F := Ideal)) := by
  have h1 : ¬ n % 32 = 31 := by omega
  show (outsAt0 m c (⟨n, h⟩ : Fin cfg0.N).val (⟨n, h⟩ : Fin cfg0.N).isLt).2.2.1 = _
  rw [outsAt0_A m c ⟨n, h⟩ h0 h1]
  dsimp only
  exact sout_A_0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩)

theorem denAt_reset (c : Dev nD) (n : ℕ) (h : n < cfg0.N) (h0 : n % 32 = 0) :
    denAt m c n h = denStep (B0 m c ⟨n, h⟩) (B1 m c ⟨n, h⟩) (B3 m c ⟨n, h⟩) (k0_pay4 (F := Ideal)) := by
  have h1 : ¬ n % 32 = 31 := by omega
  show (outsAt0 m c (⟨n, h⟩ : Fin cfg0.N).val (⟨n, h⟩ : Fin cfg0.N).isLt).2.2.2 = _
  rw [outsAt0_A m c ⟨n, h⟩ h0 h1]
  dsimp only
  exact sout_A_1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩)

/-- At every other point they step from what the point before left. -/
theorem numAt_step (c : Dev nD) (n : ℕ) (h : n + 1 < cfg0.N) (h0 : ¬(n + 1) % 32 = 0) :
    numAt m c (n + 1) h = numStep (B0 m c ⟨n + 1, h⟩) (B1 m c ⟨n + 1, h⟩) (B2 m c ⟨n + 1, h⟩) (B3 m c ⟨n + 1, h⟩)
      (numAt m c n (Nat.lt_of_succ_lt h)) := by
  show (outsAt0 m c (⟨n + 1, h⟩ : Fin cfg0.N).val (⟨n + 1, h⟩ : Fin cfg0.N).isLt).2.2.1 = _
  by_cases h1 : (n + 1) % 32 = 31
  · rw [outsAt0_C m c ⟨n + 1, h⟩ h0 h1]
    dsimp only
    exact sout_C_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) _ _
  · rw [outsAt0_B m c ⟨n + 1, h⟩ h0 h1]
    dsimp only
    exact sout_B_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) _ _

theorem denAt_step (c : Dev nD) (n : ℕ) (h : n + 1 < cfg0.N) (h0 : ¬(n + 1) % 32 = 0) :
    denAt m c (n + 1) h = denStep (B0 m c ⟨n + 1, h⟩) (B1 m c ⟨n + 1, h⟩) (B3 m c ⟨n + 1, h⟩)
      (denAt m c n (Nat.lt_of_succ_lt h)) := by
  show (outsAt0 m c (⟨n + 1, h⟩ : Fin cfg0.N).val (⟨n + 1, h⟩ : Fin cfg0.N).isLt).2.2.2 = _
  by_cases h1 : (n + 1) % 32 = 31
  · rw [outsAt0_C m c ⟨n + 1, h⟩ h0 h1]
    dsimp only
    exact sout_C_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) _ _
  · rw [outsAt0_B m c ⟨n + 1, h⟩ h0 h1]
    dsimp only
    exact sout_B_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) _ _

/-- So after point `t` every lane of the first sum holds the weighted costs of the tiles of `t`'s half up to `t`. -/
theorem numAt_eq (hnum : NumLaw) (c : Dev nD) (hy : LabelsInRange (argY m c)) (t : ℕ) (ht : t < cfg0.N) (i : S1x1x128.Idx) :
    numAt m c t ht i = ∑ s ∈ Finset.range (t % 32 + 1), tileNum m c (32 * (t / 32) + s) := by
  have h' : 32 * (t / 32) + t % 32 < cfg0.N := by rw [Nat.div_add_mod]; exact ht
  refine (congrFun (Pipeline.eq_accAt_of_mod (fun n h => numAt m c n h) 32
    (fun n h => numStep (B0 m c ⟨n, h⟩) (B1 m c ⟨n, h⟩) (B2 m c ⟨n, h⟩) (B3 m c ⟨n, h⟩) (k0_pay3 (F := Ideal)))
    (fun n h acc => numStep (B0 m c ⟨n, h⟩) (B1 m c ⟨n, h⟩) (B2 m c ⟨n, h⟩) (B3 m c ⟨n, h⟩) acc)
    (fun n h h0 => numAt_reset m c n h h0) (fun n h h0 => numAt_step m c n h h0) (by norm_num) t ht h') i).trans ?_
  refine (Pipeline.accAt_add_apply _ _ (k0_pay3 (F := Ideal)) (fun n _ => tileNum m c n) (32 * (t / 32)) 31
    (fun h i => numStep_point m hnum c hy ⟨_, h⟩ _ i) (fun n h acc i _ _ => numStep_point m hnum c hy ⟨n, h⟩ acc i)
    (t % 32) (by omega) h' i).trans ?_
  rw [pay3_apply, zero_add]

theorem denAt_eq (hden : DenLaw) (c : Dev nD) (hy : LabelsInRange (argY m c)) (t : ℕ) (ht : t < cfg0.N) (i : S1x1x128.Idx) :
    denAt m c t ht i = ∑ s ∈ Finset.range (t % 32 + 1), tileDen m c (32 * (t / 32) + s) := by
  have h' : 32 * (t / 32) + t % 32 < cfg0.N := by rw [Nat.div_add_mod]; exact ht
  refine (congrFun (Pipeline.eq_accAt_of_mod (fun n h => denAt m c n h) 32
    (fun n h => denStep (B0 m c ⟨n, h⟩) (B1 m c ⟨n, h⟩) (B3 m c ⟨n, h⟩) (k0_pay4 (F := Ideal)))
    (fun n h acc => denStep (B0 m c ⟨n, h⟩) (B1 m c ⟨n, h⟩) (B3 m c ⟨n, h⟩) acc)
    (fun n h h0 => denAt_reset m c n h h0) (fun n h h0 => denAt_step m c n h h0) (by norm_num) t ht h') i).trans ?_
  refine (Pipeline.accAt_add_apply _ _ (k0_pay4 (F := Ideal)) (fun n _ => tileDen m c n) (32 * (t / 32)) 31
    (fun h i => denStep_point m hden c hy ⟨_, h⟩ _ i) (fun n h acc i _ _ => denStep_point m hden c hy ⟨n, h⟩ acc i)
    (t % 32) (by omega) h' i).trans ?_
  rw [pay4_apply, zero_add]

/-! ## What the last point of a half copies out -/

/-- The first output's block at the last point of a half: every lane holds the half's weighted costs. -/
theorem out4_at_flush (hnum : NumLaw) (c : Dev nD) (hy : LabelsInRange (argY m c)) (t : Fin cfg0.N) (h31 : t.val % 32 = 31)
    (y : S1x1x128.Idx) :
    ((outsAt0 m c t.val t.isLt).1 : Vec Ideal S1x1x128 .f32) y = ∑ s ∈ Finset.range 32, tileNum m c (32 * (t.val / 32) + s) := by
  have h0 : ¬ t.val % 32 = 0 := by omega
  have e : ((outsAt0 m c t.val t.isLt).1 : Vec Ideal S1x1x128 .f32) = numAt m c t.val t.isLt := by
    show (outsAt0 m c t.val t.isLt).1 = (outsAt0 m c t.val t.isLt).2.2.1
    rw [outsAt0_C m c t h0 h31]
    dsimp only
    exact (out_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h31) (iblk m c 0 t) (iblk m c 1 t) (iblk m c 2 t) (iblk m c 3 t) _ _).trans
      (sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h31) (iblk m c 0 t) (iblk m c 1 t) (iblk m c 2 t) (iblk m c 3 t) _ _).symm
  rw [e, numAt_eq m hnum c hy t.val t.isLt y, h31]

/-- The second output's block there: every lane holds the half's weights. -/
theorem out5_at_flush (hden : DenLaw) (c : Dev nD) (hy : LabelsInRange (argY m c)) (t : Fin cfg0.N) (h31 : t.val % 32 = 31)
    (y : S1x1x128.Idx) :
    ((outsAt0 m c t.val t.isLt).2.1 : Vec Ideal S1x1x128 .f32) y = ∑ s ∈ Finset.range 32, tileDen m c (32 * (t.val / 32) + s) := by
  have h0 : ¬ t.val % 32 = 0 := by omega
  have e : ((outsAt0 m c t.val t.isLt).2.1 : Vec Ideal S1x1x128 .f32) = denAt m c t.val t.isLt := by
    show (outsAt0 m c t.val t.isLt).2.1 = (outsAt0 m c t.val t.isLt).2.2.2
    rw [outsAt0_C m c t h0 h31]
    dsimp only
    exact (out_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h31) (iblk m c 0 t) (iblk m c 1 t) (iblk m c 2 t) (iblk m c 3 t) _ _).trans
      (sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h31) (iblk m c 0 t) (iblk m c 1 t) (iblk m c 2 t) (iblk m c 3 t) _ _).symm
  rw [e, denAt_eq m hden c hy t.val t.isLt y, h31]

end Cert.KernelIdeal.Accum
end
-- ==== Proof.TailValue.lean ====
import proofs.«414827_j7971459301860_3_alg».proof.KernelIdeal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.ValueIdxRank1

/-! # The lines after the kernel: two sums over the halves and a quotient

Each of the kernel's two results holds, per half of the batch, 128 equal lanes. The program takes
lane 0 of each half, adds the two halves (from zero), and divides the first total by the second. -/

noncomputable section

namespace Cert.KernelIdeal.TailValue

open Cert.KernelIdeal Cert.KernelIdeal.Facts₀ Cert.KernelIdeal.Facts
open Idealize.ShloMosaic Idealize.ShloMosaic.ValueIdx

variable [Cert.KernelIdeal.Facts]

/-- Lane 0 of each half, summed over the two halves from zero. -/
def halves (O : Vec Ideal S2x1x128 .f32) : Vec Ideal S_ .f32 :=
  Host.reduceAdd (F := Ideal) (shapeCast S2 (extractStridedSlice S2x1x1 ![0, 0, 0] O slices_S2x1x128_S2x1x1_0_0_0) shapeCasts_S2x1x1_S2)
    (constant (F := Ideal) S_ .f32 0x00000000#32) reducesTo_S2_S_d0 h_S_

theorem halves_apply (O : Vec Ideal S2x1x128 .f32) (i : S_.Idx) :
    halves O i = ∑ q : Fin 2, O (ix3 q 0 0) := by
  unfold halves
  -- the reduction over the one axis into the rank-0 result: the initial value plus the total sum
  refine (Ideal.hostReduceAdd_total reducesTo_S2_S_d0 (fun b => b.elim0) _ _ i).trans ?_
  -- the initial value is the zero constant
  rw [show constant (F := Idealize.ShloMosaic.Ideal) S_ .f32 0x00000000#32 (Shape.Idx.first h_S_) = 0 from Ideal.ofBits_zero_f32, zero_add]
  -- a rank-1 index is its coordinate
  rw [← Equiv.sum_comp (idxEquiv1 (n := 2)).symm]
  refine Finset.sum_congr rfl fun q _ => ?_
  show shapeCast S2 (extractStridedSlice S2x1x1 ![0, 0, 0] O slices_S2x1x128_S2x1x1_0_0_0) shapeCasts_S2x1x1_S2 (ix1 q) = O (ix3 q 0 0)
  -- the cast [2,1,1] → [2] reads position q at (q,0,0); the slice from the origin reads there too
  refine (shapeCast_apply _ _ (ix1 q) (ix3 q 0 0) ?_).trans ?_
  · rw [Shape.rowMajor_val_three, Shape.rowMajor_val_one]
    show (q.val * 1 + 0) * 1 + 0 = q.val
    omega
  · refine extractStridedSlice_apply _ _ _ _ (ix3 q 0 0) fun a => ?_
    match a with
    | ⟨0, _⟩ => exact (Nat.zero_add _).symm
    | ⟨1, _⟩ => exact (Nat.zero_add _).symm
    | ⟨2, _⟩ => exact (Nat.zero_add _).symm

/-- The program's result from the kernel's two result arrays. -/
theorem tail_value (O4 O5 : Vec Ideal S2x1x128 .f32) (i : S_.Idx) :
    Host.divf (F := Ideal) (φ := .f32) (halves O4) (halves O5) i
      = Ideal.div (∑ q : Fin 2, O4 (ix3 q 0 0)) (∑ q : Fin 2, O5 (ix3 q 0 0)) := by
  -- the quotient is taken pointwise, and each operand is the sum of its two halves
  show Ideal.div (halves O4 i) (halves O5 i) = _
  rw [halves_apply, halves_apply]

end Cert.KernelIdeal.TailValue

end
-- ==== Proof.Final.lean ====
import proofs.«414827_j7971459301860_3_alg».proof.Proof.Accum
import proofs.«414827_j7971459301860_3_alg».proof.Proof.TailValue
import proofs.«414827_j7971459301860_3_alg».proof.Proof.PreRange
import proofs.«414827_j7971459301860_3_alg».proof.Proof.RowLoss
import Idealize.ShloMosaic.PureOps.Ideal.Laws
import Idealize.ShloMosaic.Lib.Pipeline.Value
import Idealize.ShloMosaic.Lib.ValueIdx
import Idealize.ShloMosaic.Lib.StableHlo.Run
import Idealize.ShloMosaic.Lib.Tactic

set_option maxRecDepth 16384

noncomputable section

/-! # The kernel program's result is the objective

The last tile of each half of the batch writes the half's two totals (128 equal lanes each) to row
`q` of the two result arrays; the lines after the kernel add lane 0 of the two halves and divide.
Dealing the batch's rows into halves, tiles and rows, that quotient is the objective. -/

namespace Cert.KernelIdeal.Final

open Cert.KernelIdeal Cert.KernelIdeal.Gen Cert.KernelIdeal.Accum Cert.KernelIdeal.TailValue Cert.Objectosphere
open Idealize.ShloMosaic Idealize.ShloMosaic.TcCoe Idealize.ShloMosaic.ValueIdx
open Idealize.SL Idealize.SL.Sem
open Idealize.ShloMosaic.Pipeline (Dat)

/-! ## Which block each result window holds at a point (decided over the 64 points) -/

theorem idx_w4 : ∀ t : Fin cfg0.N, win0_4.index t (0 : Fin 3) = t.val / 32 ∧ win0_4.index t (1 : Fin 3) = 0 ∧ win0_4.index t (2 : Fin 3) = 0 :=
  (by decide +kernel : ∀ t : Fin grid0.N, win0_4.index t (0 : Fin 3) = t.val / 32 ∧ win0_4.index t (1 : Fin 3) = 0 ∧ win0_4.index t (2 : Fin 3) = 0)
theorem idx_w5 : ∀ t : Fin cfg0.N, win0_5.index t (0 : Fin 3) = t.val / 32 ∧ win0_5.index t (1 : Fin 3) = 0 ∧ win0_5.index t (2 : Fin 3) = 0 :=
  (by decide +kernel : ∀ t : Fin grid0.N, win0_5.index t (0 : Fin 3) = t.val / 32 ∧ win0_5.index t (1 : Fin 3) = 0 ∧ win0_5.index t (2 : Fin 3) = 0)
theorem xsize_w4 : ∀ t : Fin cfg0.N, win0_4.xsize (grid0.coords t) (0 : Fin 3) = 1 ∧ win0_4.xsize (grid0.coords t) (1 : Fin 3) = 1 ∧ win0_4.xsize (grid0.coords t) (2 : Fin 3) = 128 :=
  (by decide +kernel : ∀ t : Fin grid0.N, win0_4.xsize (grid0.coords t) (0 : Fin 3) = 1 ∧ win0_4.xsize (grid0.coords t) (1 : Fin 3) = 1 ∧ win0_4.xsize (grid0.coords t) (2 : Fin 3) = 128)
theorem xsize_w5 : ∀ t : Fin cfg0.N, win0_5.xsize (grid0.coords t) (0 : Fin 3) = 1 ∧ win0_5.xsize (grid0.coords t) (1 : Fin 3) = 1 ∧ win0_5.xsize (grid0.coords t) (2 : Fin 3) = 128 :=
  (by decide +kernel : ∀ t : Fin grid0.N, win0_5.xsize (grid0.coords t) (0 : Fin 3) = 1 ∧ win0_5.xsize (grid0.coords t) (1 : Fin 3) = 1 ∧ win0_5.xsize (grid0.coords t) (2 : Fin 3) = 128)
theorem size_w4 : win0_4.size (0 : Fin 3) = 1 ∧ win0_4.size (1 : Fin 3) = 1 ∧ win0_4.size (2 : Fin 3) = 128 := by decide
theorem size_w5 : win0_5.size (0 : Fin 3) = 1 ∧ win0_5.size (1 : Fin 3) = 1 ∧ win0_5.size (2 : Fin 3) = 128 := by decide

variable (m : (ℓ : Loc nD τ sig) → Buf (Elt Ideal) ℓ)

/-- The first result array: row `q` holds, in every lane, the weighted costs of half `q`. -/
def G4 (c : Dev nD) : Buf (Elt Ideal) ((c : Thread nD τ).loc main_v6_0) :=
  fun (i : S2x1x128.Idx) => (∑ s ∈ Finset.range 32, tileNum m c (32 * (i 0).val + s) : EReal)

/-- The second result array: row `q` holds, in every lane, the weights of half `q`. -/
def G5 (c : Dev nD) : Buf (Elt Ideal) ((c : Thread nD τ).loc main_v6_1) :=
  fun (i : S2x1x128.Idx) => (∑ s ∈ Finset.range 32, tileDen m c (32 * (i 0).val + s) : EReal)

/-- What a flushing point writes to the first result array is the block of G4 there. -/
theorem flushed4 (hnum : NumLaw) (c : Dev nD) (hy : LabelsInRange (argY m c)) (t : Fin cfg0.N) (hf : (cfg0.win 4).flush t = true) :
    (dats m 0 c).flushed 4 t = ((cfg0.win 4).blk t).view.read (Elt Ideal) (G4 m c) := by
  have h31 : t.val % 32 = 31 := (flush0_4 t).mp hf
  show (cfg0.win 4).cut (grid0.coords t) ((dats m 0 c).after 4 t) = _
  rw [after0_4]
  funext y
  rw [View.read_apply]
  -- the block's row in the array is the point's half: index × 1 + the row inside the block, which is 0
  have e : ((((cfg0.win 4).blk t).view.emb y) 0).val = t.val / 32 := by
    show win0_4.index t 0 * 1 + 1 * ((y : S1x1x128.Idx) 0).val = _
    have : ((y : S1x1x128.Idx) 0).val < 1 := ((y : S1x1x128.Idx) 0).isLt
    rw [(idx_w4 t).1]; omega
  show ((outsAt0 m c t.val t.isLt).1 : Vec Ideal S1x1x128 .f32) y = (∑ s ∈ Finset.range 32, tileNum m c (32 * ((((cfg0.win 4).blk t).view.emb y) 0).val + s) : EReal)
  rw [out4_at_flush m hnum c hy t h31 y, e]

/-- After the run the first result array is `G4`. -/
theorem final4 (hnum : NumLaw) (c : Dev nD) (hy : LabelsInRange (argY m c)) :
    (dats m 0 c).arrAt 4 cfg0.N = G4 m c := by
  -- row q of the array lies in the block of the last point of half q, which flushes
  refine (dats m 0 c).arrAt_eq_of_cover 4 (G4 m c) (flushed4 m hnum c hy) fun i => ?_
  have h0 : (i 0 : Nat) < 2 := (i 0).isLt
  have h1 : (i 1 : Nat) < 1 := (i 1).isLt
  have h2 : (i 2 : Nat) < 128 := (i 2).isLt
  have hN : cfg0.N = 64 := N_0
  have hlt : 32 * (i 0 : Nat) + 31 < cfg0.N := by omega
  have ht : ((⟨32 * (i 0 : Nat) + 31, hlt⟩ : Fin cfg0.N).val) = 32 * (i 0 : Nat) + 31 := rfl
  refine ⟨⟨32 * (i 0 : Nat) + 31, hlt⟩, (flush0_4 _).mpr (by rw [ht]; omega), ?_⟩
  show i ∈ ((View.whole main_v6_0).slice (win0_4.rect ⟨32 * (i 0 : Nat) + 31, hlt⟩)).set
  rw [View.set_slice_whole, Rect.mem_set_unit]
  intro a
  match a with
  | ⟨0, _⟩ =>
    show win0_4.index ⟨32 * (i 0 : Nat) + 31, hlt⟩ 0 * win0_4.size 0 ≤ (i 0 : Nat) ∧ (i 0 : Nat) < win0_4.index ⟨32 * (i 0 : Nat) + 31, hlt⟩ 0 * win0_4.size 0 + win0_4.xsize (grid0.coords ⟨32 * (i 0 : Nat) + 31, hlt⟩) 0
    rw [(idx_w4 _).1, size_w4.1, (xsize_w4 _).1, ht]; omega
  | ⟨1, _⟩ =>
    show win0_4.index ⟨32 * (i 0 : Nat) + 31, hlt⟩ 1 * win0_4.size 1 ≤ (i 1 : Nat) ∧ (i 1 : Nat) < win0_4.index ⟨32 * (i 0 : Nat) + 31, hlt⟩ 1 * win0_4.size 1 + win0_4.xsize (grid0.coords ⟨32 * (i 0 : Nat) + 31, hlt⟩) 1
    rw [(idx_w4 _).2.1, size_w4.2.1, (xsize_w4 _).2.1]; omega
  | ⟨2, _⟩ =>
    show win0_4.index ⟨32 * (i 0 : Nat) + 31, hlt⟩ 2 * win0_4.size 2 ≤ (i 2 : Nat) ∧ (i 2 : Nat) < win0_4.index ⟨32 * (i 0 : Nat) + 31, hlt⟩ 2 * win0_4.size 2 + win0_4.xsize (grid0.coords ⟨32 * (i 0 : Nat) + 31, hlt⟩) 2
    rw [(idx_w4 _).2.2, size_w4.2.2, (xsize_w4 _).2.2]; omega

/-- What a flushing point writes to the second result array is the block of G5 there. -/
theorem flushed5 (hden : DenLaw) (c : Dev nD) (hy : LabelsInRange (argY m c)) (t : Fin cfg0.N) (hf : (cfg0.win 5).flush t = true) :
    (dats m 0 c).flushed 5 t = ((cfg0.win 5).blk t).view.read (Elt Ideal) (G5 m c) := by
  have h31 : t.val % 32 = 31 := (flush0_5 t).mp hf
  show (cfg0.win 5).cut (grid0.coords t) ((dats m 0 c).after 5 t) = _
  rw [after0_5]
  funext y
  rw [View.read_apply]
  -- the block's row in the array is the point's half: index × 1 + the row inside the block, which is 0
  have e : ((((cfg0.win 5).blk t).view.emb y) 0).val = t.val / 32 := by
    show win0_5.index t 0 * 1 + 1 * ((y : S1x1x128.Idx) 0).val = _
    have : ((y : S1x1x128.Idx) 0).val < 1 := ((y : S1x1x128.Idx) 0).isLt
    rw [(idx_w5 t).1]; omega
  show ((outsAt0 m c t.val t.isLt).2.1 : Vec Ideal S1x1x128 .f32) y = (∑ s ∈ Finset.range 32, tileDen m c (32 * ((((cfg0.win 5).blk t).view.emb y) 0).val + s) : EReal)
  rw [out5_at_flush m hden c hy t h31 y, e]

/-- After the run the second result array is `G5`. -/
theorem final5 (hden : DenLaw) (c : Dev nD) (hy : LabelsInRange (argY m c)) :
    (dats m 0 c).arrAt 5 cfg0.N = G5 m c := by
  -- row q of the array lies in the block of the last point of half q, which flushes
  refine (dats m 0 c).arrAt_eq_of_cover 5 (G5 m c) (flushed5 m hden c hy) fun i => ?_
  have h0 : (i 0 : Nat) < 2 := (i 0).isLt
  have h1 : (i 1 : Nat) < 1 := (i 1).isLt
  have h2 : (i 2 : Nat) < 128 := (i 2).isLt
  have hN : cfg0.N = 64 := N_0
  have hlt : 32 * (i 0 : Nat) + 31 < cfg0.N := by omega
  have ht : ((⟨32 * (i 0 : Nat) + 31, hlt⟩ : Fin cfg0.N).val) = 32 * (i 0 : Nat) + 31 := rfl
  refine ⟨⟨32 * (i 0 : Nat) + 31, hlt⟩, (flush0_5 _).mpr (by rw [ht]; omega), ?_⟩
  show i ∈ ((View.whole main_v6_1).slice (win0_5.rect ⟨32 * (i 0 : Nat) + 31, hlt⟩)).set
  rw [View.set_slice_whole, Rect.mem_set_unit]
  intro a
  match a with
  | ⟨0, _⟩ =>
    show win0_5.index ⟨32 * (i 0 : Nat) + 31, hlt⟩ 0 * win0_5.size 0 ≤ (i 0 : Nat) ∧ (i 0 : Nat) < win0_5.index ⟨32 * (i 0 : Nat) + 31, hlt⟩ 0 * win0_5.size 0 + win0_5.xsize (grid0.coords ⟨32 * (i 0 : Nat) + 31, hlt⟩) 0
    rw [(idx_w5 _).1, size_w5.1, (xsize_w5 _).1, ht]; omega
  | ⟨1, _⟩ =>
    show win0_5.index ⟨32 * (i 0 : Nat) + 31, hlt⟩ 1 * win0_5.size 1 ≤ (i 1 : Nat) ∧ (i 1 : Nat) < win0_5.index ⟨32 * (i 0 : Nat) + 31, hlt⟩ 1 * win0_5.size 1 + win0_5.xsize (grid0.coords ⟨32 * (i 0 : Nat) + 31, hlt⟩) 1
    rw [(idx_w5 _).2.1, size_w5.2.1, (xsize_w5 _).2.1]; omega
  | ⟨2, _⟩ =>
    show win0_5.index ⟨32 * (i 0 : Nat) + 31, hlt⟩ 2 * win0_5.size 2 ≤ (i 2 : Nat) ∧ (i 2 : Nat) < win0_5.index ⟨32 * (i 0 : Nat) + 31, hlt⟩ 2 * win0_5.size 2 + win0_5.xsize (grid0.coords ⟨32 * (i 0 : Nat) + 31, hlt⟩) 2
    rw [(idx_w5 _).2.2, size_w5.2.2, (xsize_w5 _).2.2]; omega

/-- What the lines after the kernel leave in the program's result: the objective. -/
theorem result_value (hnum : NumLaw) (hden : DenLaw) (c : Dev nD) (hy : LabelsInRange (argY m c)) :
    Pipeline.afterTail₀ cfgs (dats m) 0 (V0 m) [hostOps1] c main_v13
      = fun _ => objective (argL m c) (argY m c) (argU m c) (argFe m c) (argW m c) := by
  -- the two result arrays as the lines after the kernel find them
  have e4 : Pipeline.withArrays (cfgs 0).spec c (V0 m c) (fun w => (dats m 0 c).arrAt w (cfgs 0).N) (Proc.devRef .tc main_v6_0) = G4 m c :=
    (Pipeline.withArrays_arr spec0 launch0.win.arr_inj c _ _ 4).trans (final4 m hnum c hy)
  have e5 : Pipeline.withArrays (cfgs 0).spec c (V0 m c) (fun w => (dats m 0 c).arrAt w (cfgs 0).N) (Proc.devRef .tc main_v6_1) = G5 m c :=
    (Pipeline.withArrays_arr spec0 launch0.win.arr_inj c _ _ 5).trans (final5 m hden c hy)
  unfold Pipeline.afterTail₀
  show StableHlo.after hostOps1 _ (Proc.devRef .tc main_v13) = _
  after_results
  rw [e4, e5]
  -- the nine lines: lane 0 of each half, summed over the halves, for each array; then the quotient
  show Host.divf (F := Ideal) (φ := .f32) (halves (G4 m c)) (halves (G5 m c)) = _
  funext i
  rw [tail_value]
  -- the halves' totals are the sums over the batch's rows, dealt into halves, tiles and rows
  unfold objective
  rw [sum_rows_by_tiles, sum_rows_by_tiles]
  -- row q of each array is the half's 32 tiles, a tile its 4096 rows
  rfl

/-- The program's run, read: its result at the objective of its arguments, the arguments unchanged. -/
theorem run (hnum : NumLaw) (hden : DenLaw) (hy : ∀ c : Dev nD, LabelsInRange (argY m c)) (ρ : Dev nD → PrngReg) :
    θ_run defs (onTc (τ := τ) (main (F := Ideal))) ⟨m, fun _ => 0, ρ⟩ (fun r => ∀ c : Dev nD,
      r.2.mem ((c.tc : Thread nD τ).loc main_v13) = (fun _ => objective (argL m c) (argY m c) (argU m c) (argFe m c) (argW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  -- the result is no window's array: the lines after the kernel leave it; the arguments are as launched
  exact (θ_run defs _ _).mono (fun _ h c =>
    ⟨((h c).2 main_v13 (Pipeline.mem_restRefs_of main_v13 (by decide) (by decide))).trans (result_value m hnum hden c (hy c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c)⟩)
    (run_main m ρ)

end Cert.KernelIdeal.Final
end
-- ==== Proof.lean ====
/- The objectosphere loss on TPU against its jnp reference, over the extended reals.

   The kernel walks the batch of 262144 rows in 64 tiles of 4096, 32 tiles to each of two halves, and keeps
   two running sums per half: the rows' weighted costs and the rows' weights. Per row it computes
   log(softmax + ε) class-major, picks the label's weight and log-probability by a one-hot sum over the thirteen
   classes, chooses between the "no known class" cost and the "known class" cost by the row's flag, and adds a
   penalty on the feature norm (the norm's square for a flagged row, the squared shortfall from ξ otherwise).
   The lines after the kernel add the two halves and divide. The reference computes the same costs row-major
   with gathers in place of the one-hot sums and one sum over the whole batch.

   Where the two agree: a one-hot sum over the classes is the gathered entry exactly when the label is a class,
   so the claim is stated under the added precondition that every label lies in [0, 13) (outside it the
   reference indexes out of range and the kernel selects nothing). Given that, both sides are the same function
   of each row, and the extended reals' sums regroup freely (they form a commutative monoid, and 0 · x = 0 for
   every x), so the kernel's sums by half, tile and row are the reference's sums over the batch. No finiteness
   of the float inputs is used.

   The pieces: RowLoss (the row-by-row objective), TileValue (what one tile adds to each running sum), Steps
   (what each control case of the kernel leaves in the running sums), Blocks (a tile's blocks are the argument
   arrays' rows), Accum (the running sums after every point), TailValue and Final (the result arrays and the
   lines after the kernel), RefValue (the reference computes the objective), PreRange (the precondition's
   label range; the batch's rows dealt into tiles). -/
import proofs.«414827_j7971459301860_3_alg».proof.Defs
import proofs.«414827_j7971459301860_3_alg».proof.Proof.Gen.Kernel
import proofs.«414827_j7971459301860_3_alg».proof.Proof.Gen.Kernel.Frame
import proofs.«414827_j7971459301860_3_alg».proof.Proof.Gen.KernelIdeal
import proofs.«414827_j7971459301860_3_alg».proof.Proof.Gen.KernelIdeal.Frame
import proofs.«414827_j7971459301860_3_alg».proof.Proof.Gen.ReferenceIdeal
import proofs.«414827_j7971459301860_3_alg».proof.Proof.Gen.Pre_finite_inputs
import proofs.«414827_j7971459301860_3_alg».proof.Proof.RefRun
import proofs.«414827_j7971459301860_3_alg».proof.Proof.RefRead
import proofs.«414827_j7971459301860_3_alg».proof.Proof.RefValue
import proofs.«414827_j7971459301860_3_alg».proof.Proof.PreRange
import proofs.«414827_j7971459301860_3_alg».proof.Proof.TileValue
import proofs.«414827_j7971459301860_3_alg».proof.Proof.Final
import Idealize.ShloMosaic.Adequacy
import Idealize.ShloMosaic.Init

noncomputable section

namespace Cert.Proof

open Idealize.ShloMosaic Idealize.ShloMosaic.TcCoe Idealize.SL.Sem Cert.Objectosphere

/-- The word-level kernel runs and leaves its arguments as they were. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference runs and leaves its arguments as they were: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end at the objective of the argument arrays. -/
theorem algebraic : Cert.algebraic_KernelIdeal_ReferenceIdeal := by
  intro m ρ m' ρ' hpre hagree
  have hy : ∀ c : Dev Cert.KernelIdeal.nD, LabelsInRange (Cert.KernelIdeal.Accum.argY m c) :=
    fun c => labels_of_pre _ _ _ _ _ (hpre c)
  refine ⟨fun c => fun _ => objective (Cert.KernelIdeal.Accum.argL m c) (Cert.KernelIdeal.Accum.argY m c)
      (Cert.KernelIdeal.Accum.argU m c) (Cert.KernelIdeal.Accum.argFe m c) (Cert.KernelIdeal.Accum.argW m c),
    Cert.KernelIdeal.Final.run m Cert.KernelIdeal.TileValue.num_step Cert.KernelIdeal.TileValue.den_step hy ρ, ?_⟩
  refine (θ_run Cert.ReferenceIdeal.defs _ _).mono (fun _ h c => ⟨?_, (h c).2⟩)
    (Cert.ReferenceIdeal.ValueP.run (F := Ideal) m' ρ')
  rw [(h c).1, Cert.ReferenceIdeal.ReadP.val_main_v45_eq]
  funext i
  rw [(hagree c).1, (hagree c).2.1, (hagree c).2.2.1, (hagree c).2.2.2.1, (hagree c).2.2.2.2]
  exact Cert.ReferenceIdeal.RefValue.reference_value _ _ _ _ _ (hy c) i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
